-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3301376x1 : Shape := ⟨2, ![3301376, 1]⟩
abbrev S1x16 : Shape := ⟨2, ![1, 16]⟩
abbrev S1x1 : Shape := ⟨2, ![1, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S3301376x16 : Shape := ⟨2, ![3301376, 16]⟩
abbrev S8192x16 : Shape := ⟨2, ![8192, 16]⟩
abbrev S8192x1 : Shape := ⟨2, ![8192, 1]⟩
abbrev S100000x1 : Shape := ⟨2, ![100000, 1]⟩
abbrev S10000x1 : Shape := ⟨2, ![10000, 1]⟩
abbrev S10000 : Shape := ⟨1, ![10000]⟩

abbrev nBuf : Space → Nat
  | .hbm => 94
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S3300000x1, .f32⟩
  | .hbm, ⟨50, _⟩ => ⟨S_, .i32⟩
  | .hbm, ⟨51, _⟩ => ⟨S_, .f32⟩
  | .hbm, ⟨52, _⟩ => ⟨S3301376x1, .f32⟩
  | .hbm, ⟨53, _⟩ => ⟨S1x16, .f32⟩
  | .hbm, ⟨54, _⟩ => ⟨S1x1, .f32⟩
  | .hbm, ⟨55, _⟩ => ⟨S100000x16, .f32⟩
  | .hbm, ⟨56, _⟩ => ⟨S_, .i32⟩
  | .hbm, ⟨57, _⟩ => ⟨S3300000, .i32⟩
  | .hbm, ⟨58, _⟩ => ⟨S3300000, .i1⟩
  | .hbm, ⟨59, _⟩ => ⟨S_, .i32⟩
  | .hbm, ⟨60, _⟩ => ⟨S3300000, .i32⟩
  | .hbm, ⟨61, _⟩ => ⟨S3300000, .i32⟩
  | .hbm, ⟨62, _⟩ => ⟨S3300000, .i32⟩
  | .hbm, ⟨63, _⟩ => ⟨S3300000x1, .i32⟩
  | .hbm, ⟨64, _⟩ => ⟨S3300000x16, .f32⟩
  | .hbm, ⟨65, _⟩ => ⟨S_, .i32⟩
  | .hbm, ⟨66, _⟩ => ⟨S_, .f32⟩
  | .hbm, ⟨67, _⟩ => ⟨S3301376x16, .f32⟩
  | .hbm, ⟨68, _⟩ => ⟨S3301376x16, .f32⟩
  | .hbm, ⟨69, _⟩ => ⟨S3300000x16, .f32⟩
  | .hbm, ⟨70, _⟩ => ⟨S_, .f32⟩
  | .hbm, ⟨71, _⟩ => ⟨S100000x16, .f32⟩
  | .hbm, ⟨72, _⟩ => ⟨S3300000x1, .i32⟩
  | .hbm, ⟨73, _⟩ => ⟨S100000x16, .f32⟩
  | .hbm, ⟨74, _⟩ => ⟨S100000x1, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x1, .f32⟩
  | .hbm, ⟨84, _⟩ => ⟨S_, .i32⟩
  | .hbm, ⟨85, _⟩ => ⟨S_, .f32⟩
  | .hbm, ⟨86, _⟩ => ⟨S3301376x1, .f32⟩
  | .hbm, ⟨87, _⟩ => ⟨S3301376x1, .f32⟩
  | .hbm, ⟨88, _⟩ => ⟨S3300000x1, .f32⟩
  | .hbm, ⟨89, _⟩ => ⟨S_, .f32⟩
  | .hbm, ⟨90, _⟩ => ⟨S100000x1, .f32⟩
  | .hbm, ⟨91, _⟩ => ⟨S3300000x1, .i32⟩
  | .hbm, ⟨92, _⟩ => ⟨S100000x1, .f32⟩
  | .hbm, ⟨93, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S8192x16, .f32⟩
  | .local _ .vmem, ⟨6, _⟩ => ⟨S8192x16, .f32⟩
  | .local _ .vmem, ⟨7, _⟩ => ⟨S8192x1, .f32⟩
  | .local _ .vmem, ⟨8, _⟩ => ⟨S8192x1, .f32⟩
  | .local _ .vmem, ⟨9, _⟩ => ⟨S8192x16, .f32⟩
  | .local _ .vmem, ⟨10, _⟩ => ⟨S8192x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S16x1, .f32⟩
  | .local _ .vmem, ⟨15, _⟩ => ⟨S10000x1, .f32⟩
  | .local _ .vmem, ⟨16, _⟩ => ⟨S10000x1, .f32⟩
  | .local _ .vmem, ⟨17, _⟩ => ⟨S8192x1, .f32⟩
  | .local _ .vmem, ⟨18, _⟩ => ⟨S8192x1, .f32⟩
  | .local _ .vmem, ⟨19, _⟩ => ⟨S8192x1, .f32⟩
  | .local _ .vmem, ⟨20, _⟩ => ⟨S8192x1, .f32⟩
  | .local _ .vmem, ⟨21, _⟩ => ⟨S8192x1, .f32⟩
  | .local _ .vmem, ⟨22, _⟩ => ⟨S8192x1, .f32⟩
  | .local _ .vmem, ⟨23, _⟩ => ⟨S10000x1, .f32⟩
  | .local _ .vmem, ⟨24, _⟩ => ⟨S10000x1, .f32⟩
  | .local _ .vmem, ⟨25, _⟩ => ⟨S1x1, .f32⟩
  | .local _ .vmem, ⟨26, _⟩ => ⟨S10000x1, .f32⟩
  | .local _ .vmem, ⟨27, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_call1_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_10 : Ref sig .tc := ⟨.hbm, 65, rfl⟩
abbrev main_call2_v0 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_call3_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_15 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![403], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![403], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  pads_S3300000x1_S3301376x1_013760_000 : S3300000x1.Pads (![0, 0] : Fin 2 → Nat) ![1376, 0] ![0, 0] S3301376x1
  h_S_ : 0 < S_.numel
  shapeCasts_S16_S1x16 : S16.ShapeCasts S1x16
  shapeCasts_S1_S1x1 : S1.ShapeCasts S1x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  pads_S3300000x16_S3301376x16_013760_000 : S3300000x16.Pads (![0, 0] : Fin 2 → Nat) ![1376, 0] ![0, 0] S3301376x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x16 : S8192x1.Broadcasts S8192x16
  slices_S3301376x16_S3300000x16_0_0 : S3301376x16.Slices ![0, 0] S3300000x16
  bcast_S_S100000x16 : S_.BroadcastsInDim S100000x16 (![] : Fin 0 → Fin S100000x16.rank)
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  slices_S3301376x1_S3300000x1_0_0 : S3301376x1.Slices ![0, 0] S3300000x1
  bcast_S_S100000x1 : S_.BroadcastsInDim S100000x1 (![] : Fin 0 → Fin S100000x1.rank)
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  reduces_S10000x1_S10000 : S10000x1.Reduces [1] S10000
  shapeCasts_S10000_S10000x1 : S10000.ShapeCasts S10000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x1_S10000x1_1_0_0_1_n_n_wf : DotDims.WF S10000x16 S16x1 S10000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3301376x16.size a
  hwx1_0 : ∀ i : grid1.Coords, EltTy.bits .f32 = 32 ∨ (Rect.block (s := S3301376x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S3301376x1.size a
  hwx1_1 : ∀ i : grid1.Coords, EltTy.bits .f32 = 32 ∨ (Rect.block (s := S3301376x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S3301376x16.size a
  hwx1_2 : ∀ i : grid1.Coords, EltTy.bits .f32 = 32 ∨ (Rect.block (s := S3301376x16) S8192x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1.size a ≤ S16x1.size a
  hwx2_2 : ∀ i : grid2.Coords, EltTy.bits .f32 = 32 ∨ (Rect.block (s := S16x1) S16x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x1.size a ≤ S3301376x1.size a
  hwx3_0 : ∀ i : grid3.Coords, EltTy.bits .f32 = 32 ∨ (Rect.block (s := S3301376x1) S8192x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S3301376x1.size a
  hwx3_1 : ∀ i : grid3.Coords, EltTy.bits .f32 = 32 ∨ (Rect.block (s := S3301376x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x1.size a ≤ S3301376x1.size a
  hwx3_2 : ∀ i : grid3.Coords, EltTy.bits .f32 = 32 ∨ (Rect.block (s := S3301376x1) S8192x1.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x1.size a ≤ S100000x1.size a
  hwx4_0 : ∀ i : grid4.Coords, EltTy.bits .f32 = 32 ∨ (Rect.block (s := S100000x1) S10000x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S16x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S10000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S8192x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S8192x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x1 : Shape := ⟨2, ![16, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x1 : Shape := ⟨2, ![100000, 1]⟩
abbrev S1x1 : Shape := ⟨2, ![1, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x1, .f32⟩
  | .hbm, ⟨60, _⟩ => ⟨S3300000x16, .f32⟩
  | .hbm, ⟨61, _⟩ => ⟨S3300000x16, .f32⟩
  | .hbm, ⟨62, _⟩ => ⟨S_, .f32⟩
  | .hbm, ⟨63, _⟩ => ⟨S100000x16, .f32⟩
  | .hbm, ⟨64, _⟩ => ⟨S3300000x1, .i32⟩
  | .hbm, ⟨65, _⟩ => ⟨S100000x16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S_, .f32⟩
  | .hbm, ⟨70, _⟩ => ⟨S100000x16, .f32⟩
  | .hbm, ⟨71, _⟩ => ⟨S100000x16, .f32⟩
  | .hbm, ⟨72, _⟩ => ⟨S100000x1, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x1, .f32⟩
  | .hbm, ⟨82, _⟩ => ⟨S3300000x1, .f32⟩
  | .hbm, ⟨83, _⟩ => ⟨S3300000x1, .f32⟩
  | .hbm, ⟨84, _⟩ => ⟨S_, .f32⟩
  | .hbm, ⟨85, _⟩ => ⟨S100000x1, .f32⟩
  | .hbm, ⟨86, _⟩ => ⟨S3300000x1, .i32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S100000, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x1, .f32⟩
  | .hbm, ⟨99, _⟩ => ⟨S_, .f32⟩
  | .hbm, ⟨100, _⟩ => ⟨S100000, .f32⟩
  | .hbm, ⟨101, _⟩ => ⟨S100000x1, .f32⟩
  | .hbm, ⟨102, _⟩ => ⟨S100000x1, .f32⟩
  | .hbm, ⟨103, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call2_cst : Ref sig .tc := ⟨.hbm, 91, rfl⟩
abbrev main_call2_v0 : Ref sig .tc := ⟨.hbm, 92, rfl⟩
abbrev main_call2_cst_0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_cst_1 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x1_0 : S100000.BroadcastsInDim S100000x1 (![0] : Fin 1 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x1_S100000x1_1_0_0_1_n_n_wf : DotDims.WF S100000x16 S16x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Region1.lean ====
/-
  The first row-scaling call. Its grid has 403 points; point t holds rows 8192 t … 8192 t + 8191 of a
  [3301376, 16] matrix g and of a [3301376, 1] column n, and writes back the same rows of the result. The body
  multiplies each entry of its block of g by the entry of the column's block in the same row. So, whatever
  the order of the points, the result array ends as the one function (r, k) ↦ g (r, k) · n (r, 0) of the two
  arrays the call finds on entry: the 403 blocks tile the 3301376 rows exactly.
-/
import proofs.«114095_j29265907155119_1_alg».proof.Proof.Gen.KernelIdeal.Frame
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Every row of a matrix scaled by that row's entry of a one-column matrix. -/
def scaleRows {E C : Nat} (g : (⟨2, ![E, C]⟩ : Shape).Idx → Elt F .f32) (n : (⟨2, ![E, 1]⟩ : Shape).Idx → Elt F .f32) :
    (⟨2, ![E, C]⟩ : Shape).Idx → Elt F .f32 :=
  fun i => FloatOps.mulf (g i) (n (ix2 (i 0) (0 : Fin 1)))

/-- The body's product at row p, column q of its block: the block of g there times the column's block in row p. -/
theorem pay_apply (x0 : Vec F S8192x16 .f32) (x1 : Vec F S8192x1 .f32) (j : S8192x16.Idx) :
    k1_pay1 x0 x1 j = FloatOps.mulf (x0 j) (x1 (ix2 (j 0) (0 : Fin 1))) := by
  unfold k1_pay1
  show FloatOps.mulf (shapeCast S8192x16 x0 shapeCasts_S8192x16_S8192x16 j)
    (broadcastTo S8192x16 (shapeCast S8192x1 x1 shapeCasts_S8192x1_S8192x1) broadcasts_S8192x1_S8192x16 j) = _
  rw [shapeCast_self, shapeCast_self]
  refine congrArg (FloatOps.mulf (x0 j)) ?_
  refine broadcastTo_apply x1 broadcasts_S8192x1_S8192x16 j (ix2 (j 0) (0 : Fin 1)) fun a => ?_
  match a with
  | ⟨0, _⟩ => rfl
  | ⟨1, _⟩ => rfl

/-- The three index maps, decided over the grid: at point t each window is on block row t, block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled matrix. -/
theorem flushed_eq (c : Dev nD) (t : Fin cfg1.N) :
    (dat1 V c).flushed 2 t = ((cfg1.win 2).blk t).view.read (Elt F) (scaleRows (V c main_v44) (V c main_v33)) := by
  show (cfg1.win 2).cut (grid1.coords t) ((dat1 V c).after 2 t) = _
  rw [after1_2]
  unfold out1_2
  rw [View.canon_unit_zero hz]
  simp only [View.ld_unit_zero (S := S8192x16) hz, View.ld_unit_zero (S := S8192x1) hz]
  obtain ⟨e0, e1, e2, e3, e4, e5⟩ := idx_facts t
  funext j
  show k1_pay1 (iblk1 V c 0 t) (iblk1 V c 1 t) j = scaleRows (V c main_v44) (V c main_v33) (((cfg1.win 2).blk t).view.emb j)
  refine (pay_apply (iblk1 V c 0 t) (iblk1 V c 1 t) j).trans ?_
  unfold scaleRows
  show FloatOps.mulf (V c main_v44 (((cfg1.win 0).blk t).view.emb j)) (V c main_v33 (((cfg1.win 1).blk t).view.emb (ix2 (j 0) (0 : Fin 1))))
    = FloatOps.mulf (V c main_v44 (((cfg1.win 2).blk t).view.emb j)) (V c main_v33 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 16 + 1 * (j 1).val = win1_2.index t (1 : Fin 2) * 16 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  rw [h0, h1]
  rfl

/-- An index of the array is in point t's block iff each coordinate is in the block's range on its axis. -/
theorem mem_blk (t : Fin cfg1.N) (i : S3301376x16.Idx) :
    i ∈ ((cfg1.win 2).blk t).view.set ↔ ∀ a : Fin 2, win1_2.index t a * S8192x16.size a ≤ (i a).val ∧ (i a).val < win1_2.index t a * S8192x16.size a + S8192x16.size a := by
  show i ∈ ((View.whole main_v45).slice (win1_2.rect t)).set ↔ _
  rw [View.set_slice_whole, Rect.mem_set_unit]
  exact Iff.rfl

/-- Every index lies in some written-back block: row r is in block r / 8192. -/
theorem cover (i : S3301376x16.Idx) : ∃ t : Fin cfg1.N, (cfg1.win 2).flush t = true ∧ i ∈ ((cfg1.win 2).blk t).view.set := by
  have hi0 : (i 0).val < 3301376 := (i 0).isLt
  have hi1 : (i 1).val < 16 := (i 1).isLt
  have hN : grid1.N = 403 := N_1
  let t : Fin cfg1.N := ⟨(i 0).val / 8192, by show (i 0).val / 8192 < grid1.N; rw [hN]; omega⟩
  obtain ⟨e0, e1, e2, e3, e4, e5⟩ := idx_facts t
  have ht : t.val = (i 0).val / 8192 := rfl
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 16 ≤ (i 1).val ∧ (i 1).val < win1_2.index t (1 : Fin 2) * 16 + 16; omega

/-- The result array after the call: the entry contents of g, each row scaled by the column's entry. -/
theorem final (c : Dev nD) : (dat1 V c).arrAt 2 cfg1.N = scaleRows (V c main_v44) (V c main_v33) :=
  (dat1 V c).arrAt_eq_of_cover 2 _ (fun t _ => flushed_eq V c t) (cover)

end Cert.KernelIdeal.Region1

end
-- ==== Proof.Region3.lean ====
/-
  The second row-scaling call: a [3301376, 1] column g against the [3301376, 1] column n, in 403 blocks of 8192 rows.
  Point t holds rows 8192 t … 8192 t + 8191 of both columns and writes back their entrywise product in the same
  rows; the blocks tile the rows exactly, so the result array ends as the entrywise product of the two columns the
  call finds on entry.
-/
import proofs.«114095_j29265907155119_1_alg».proof.Proof.Gen.KernelIdeal.Frame
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The body's product is the entrywise product of its two blocks. -/
theorem pay_eq (x0 x1 : Vec F S8192x1 .f32) : k3_pay1 x0 x1 = mulf x0 x1 := by
  unfold k3_pay1
  show mulf (shapeCast S8192x1 x0 shapeCasts_S8192x1_S8192x1) (shapeCast S8192x1 x1 shapeCasts_S8192x1_S8192x1) = _
  rw [shapeCast_self, shapeCast_self]

/-- The three index maps, decided over the grid: at point t each window is on block row t, block column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the entrywise product of the two columns. -/
theorem flushed_eq (c : Dev nD) (t : Fin cfg3.N) :
    (dat3 V c).flushed 2 t = ((cfg3.win 2).blk t).view.read (Elt F) (mulf (V c main_v58 : S3301376x1.Idx → Elt F .f32) (V c main_v33)) := by
  show (cfg3.win 2).cut (grid3.coords t) ((dat3 V c).after 2 t) = _
  rw [after3_2]
  unfold out3_2
  rw [View.canon_unit_zero hz]
  simp only [View.ld_unit_zero (S := S8192x1) hz]
  obtain ⟨e0, e1, e2, e3, e4, e5⟩ := idx_facts t
  funext j
  show k3_pay1 (iblk3 V c 0 t) (iblk3 V c 1 t) j = mulf (V c main_v58 : S3301376x1.Idx → Elt F .f32) (V c main_v33) (((cfg3.win 2).blk t).view.emb j)
  refine (congrFun (pay_eq (iblk3 V c 0 t) (iblk3 V c 1 t)) j).trans ?_
  show FloatOps.mulf (V c main_v58 (((cfg3.win 0).blk t).view.emb j)) (V c main_v33 (((cfg3.win 1).blk t).view.emb j))
    = FloatOps.mulf (V c main_v58 (((cfg3.win 2).blk t).view.emb j)) (V c main_v33 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 1 + 1 * (j 1).val = win3_2.index t (1 : Fin 2) * 1 + 1 * (j 1).val; omega
  have h1 : ((cfg3.win 1).blk t).view.emb j = ((cfg3.win 2).blk t).view.emb j := by
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * (j 1).val = win3_2.index t (1 : Fin 2) * 1 + 1 * (j 1).val; omega
  rw [h0, h1]

/-- An index of the array is in point t's block iff each coordinate is in the block's range on its axis. -/
theorem mem_blk (t : Fin cfg3.N) (i : S3301376x1.Idx) :
    i ∈ ((cfg3.win 2).blk t).view.set ↔ ∀ a : Fin 2, win3_2.index t a * S8192x1.size a ≤ (i a).val ∧ (i a).val < win3_2.index t a * S8192x1.size a + S8192x1.size a := by
  show i ∈ ((View.whole main_v59).slice (win3_2.rect t)).set ↔ _
  rw [View.set_slice_whole, Rect.mem_set_unit]
  exact Iff.rfl

/-- Every index lies in some written-back block: row r is in block r / 8192. -/
theorem cover (i : S3301376x1.Idx) : ∃ t : Fin cfg3.N, (cfg3.win 2).flush t = true ∧ i ∈ ((cfg3.win 2).blk t).view.set := by
  have hi0 : (i 0).val < 3301376 := (i 0).isLt
  have hi1 : (i 1).val < 1 := (i 1).isLt
  have hN : grid3.N = 403 := N_3
  let t : Fin cfg3.N := ⟨(i 0).val / 8192, by show (i 0).val / 8192 < grid3.N; rw [hN]; omega⟩
  obtain ⟨e0, e1, e2, e3, e4, e5⟩ := idx_facts t
  have ht : t.val = (i 0).val / 8192 := rfl
  refine ⟨t, flush3_2 t, ?_⟩
  rw [mem_blk]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 1 ≤ (i 1).val ∧ (i 1).val < win3_2.index t (1 : Fin 2) * 1 + 1; omega

/-- The result array after the call: the entrywise product of the two columns as the call finds them. -/
theorem final (c : Dev nD) : (dat3 V c).arrAt 2 cfg3.N = mulf (V c main_v58 : S3301376x1.Idx → Elt F .f32) (V c main_v33) :=
  (dat3 V c).arrAt_eq_of_cover 2 _ (fun t _ => flushed_eq V c t) (cover)

end Cert.KernelIdeal.Region3

end
-- ==== Proof.HostFold.lean ====
/-
  What the kernel program's buffers hold at each boundary between its host stretches and its five calls, read back
  through the fold of buffer contents, for any float values.
  The host stretches before the first call compute, from the edge list alone, the source and destination index
  vectors with the self loops appended, the degree by a scatter-add of ones, its inverse square root where positive,
  and the per-edge normalisation; these are the very operations the reference applies, so each buffer is stated at
  the reference's stage of the same name. A buffer no later operation writes keeps its contents across every later
  stretch and call; a call's result array holds what its pipeline leaves; the stretch after a call pads a gather of the
  call's result, or scatter-adds the leading rows of it.
-/
import proofs.«114095_j29265907155119_1_alg».proof.Proof.Gen.KernelIdeal.Frame
import proofs.«114095_j29265907155119_1_alg».proof.Proof.Region1
import proofs.«114095_j29265907155119_1_alg».proof.Proof.Region3
import proofs.«114095_j29265907155119_1_alg».proof.Proof.RefRead
import Idealize.ShloMosaic.Lib.StableHlo.Run
import Idealize.ShloMosaic.Lib.ValueIdx

set_option maxRecDepth 65536

noncomputable section

namespace Cert.KernelIdeal.Fold

open Cert.KernelIdeal Cert.KernelIdeal.Gen
open Idealize.ShloMosaic Idealize.ShloMosaic.TcCoe Idealize.SL.Sem
open Cert.ReferenceIdeal.ReadP

variable {F : FTy → Type} [FloatOps F]
variable (m : (ℓ : Loc nD τ sig) → Buf (Elt F) ℓ) (ρ : Dev nD → PrngReg) (c : Dev nD)

/-- A buffer that no operation of a host stretch writes keeps its contents across the stretch. -/
macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes, StableHlo.quaternary_writes,
        StableHlo.reshape_writes, StableHlo.binaryIndexed_writes, Finset.mem_singleton]
      repeat' apply And.intro
      all_goals exact StableHlo.devRef_ne_of_ne (by decide))))

/-- Reads one buffer after a literal host stretch from the contents before it. -/
macro "read_stretch" ops:ident : tactic =>
  `(tactic| (simp only [$ops:ident]; after_results; try simp only [StableHlo.TRef.ofBuf, StableHlo.TRef.toBuf, cast_eq]))

/-! ## Before the first call -/

theorem w1_v3 : W1 m ρ c (Proc.devRef .tc main_v3) = val_main_v3 (F := F) (m ((c : Thread nD τ).loc main_arg1)) := by
  show StableHlo.after hostOps0 (W0 m ρ c) (Proc.devRef .tc main_v3) = _
  read_stretch hostOps0
  try rfl
theorem w1_v6 : W1 m ρ c (Proc.devRef .tc main_v6) = val_main_v6 (F := F) (m ((c : Thread nD τ).loc main_arg1)) := by
  show StableHlo.after hostOps0 (W0 m ρ c) (Proc.devRef .tc main_v6) = _
  read_stretch hostOps0
  try rfl
theorem w1_v12 : W1 m ρ c (Proc.devRef .tc main_v12) = val_main_v12 (F := F) (m ((c : Thread nD τ).loc main_arg1)) := by
  show StableHlo.after hostOps0 (W0 m ρ c) (Proc.devRef .tc main_v12) = _
  read_stretch hostOps0
  try rfl
theorem w1_v15 : W1 m ρ c (Proc.devRef .tc main_v15) = val_main_v15 (F := F) (m ((c : Thread nD τ).loc main_arg1)) := by
  show StableHlo.after hostOps0 (W0 m ρ c) (Proc.devRef .tc main_v15) = _
  read_stretch hostOps0
  try rfl
theorem w1_cst3 : W1 m ρ c (Proc.devRef .tc main_cst_3) = constant (F := F) S_ .f32 0x00000000#32 := by
  show StableHlo.after hostOps0 (W0 m ρ c) (Proc.devRef .tc main_cst_3) = _
  read_stretch hostOps0
  try rfl

theorem w2_v16 : W2 m ρ c (Proc.devRef .tc main_v16) = val_main_v16 (F := F) (m ((c : Thread nD τ).loc main_arg1)) := by
  have h12 := w1_v12 m ρ c
  have h15 := w1_v15 m ρ c
  have hc := w1_cst3 m ρ c
  show StableHlo.after hostOps0_1 (W1 m ρ c) (Proc.devRef .tc main_v16) = _
  generalize W1 m ρ c = V at h12 h15 hc ⊢
  read_stretch hostOps0_1
  rw [h12, h15, hc]
  try rfl
theorem w2_v3 : W2 m ρ c (Proc.devRef .tc main_v3) = val_main_v3 (F := F) (m ((c : Thread nD τ).loc main_arg1)) :=
  calc W2 m ρ c (Proc.devRef .tc main_v3)
    _ = W1 m ρ c (Proc.devRef .tc main_v3) := by host_keeps hostOps0_1
    _ = _ := w1_v3 m ρ c
theorem w2_v6 : W2 m ρ c (Proc.devRef .tc main_v6) = val_main_v6 (F := F) (m ((c : Thread nD τ).loc main_arg1)) :=
  calc W2 m ρ c (Proc.devRef .tc main_v6)
    _ = W1 m ρ c (Proc.devRef .tc main_v6) := by host_keeps hostOps0_1
    _ = _ := w1_v6 m ρ c

set_option maxHeartbeats 2000000 in
/-- The per-edge normalisation as a column. -/
theorem w3_v32 : W3 m ρ c (Proc.devRef .tc main_v32)
    = shapeCast S3300000x1 (val_main_v31 (F := F) (m ((c : Thread nD τ).loc main_arg1))) shapeCasts_S3300000_S3300000x1 := by
  have h16 := w2_v16 m ρ c
  have h3 := w2_v3 m ρ c
  have h6 := w2_v6 m ρ c
  show StableHlo.after hostOps0_2 (W2 m ρ c) (Proc.devRef .tc main_v32) = _
  generalize W2 m ρ c = V at h16 h3 h6 ⊢
  read_stretch hostOps0_2
  rw [h16, h3, h6]
  unfold val_main_v31 val_main_v23 val_main_v30 val_main_v22 val_main_v29 val_main_v21 val_main_v28 val_main_v18 val_main_v25
    val_main_v20 val_main_v27 val_main_v17 val_main_v24 val_main_v19 val_main_v26 val_main_c val_main_c_5 val_main_c_4 val_main_c_6
  try rfl
theorem w3_c7 : W3 m ρ c (Proc.devRef .tc main_c_7) = constantI S_ 32 0#32 := by
  show StableHlo.after hostOps0_2 (W2 m ρ c) (Proc.devRef .tc main_c_7) = _
  generalize W2 m ρ c = V
  read_stretch hostOps0_2
  try rfl
theorem w3_v3 : W3 m ρ c (Proc.devRef .tc main_v3) = val_main_v3 (F := F) (m ((c : Thread nD τ).loc main_arg1)) :=
  calc W3 m ρ c (Proc.devRef .tc main_v3)
    _ = W2 m ρ c (Proc.devRef .tc main_v3) := by host_keeps hostOps0_2
    _ = _ := w2_v3 m ρ c
theorem w3_v6 : W3 m ρ c (Proc.devRef .tc main_v6) = val_main_v6 (F := F) (m ((c : Thread nD τ).loc main_arg1)) :=
  calc W3 m ρ c (Proc.devRef .tc main_v6)
    _ = W2 m ρ c (Proc.devRef .tc main_v6) := by host_keeps hostOps0_2
    _ = _ := w2_v6 m ρ c

/-- The normalisation column padded below with zero rows to 3301376 rows. -/
abbrev normPad : (⟨S3301376x1, .f32⟩ : BufTy).Contents (Elt F) :=
  pad S3301376x1 ![0, 0] ![1376, 0] ![0, 0] (shapeCast S3300000x1 (val_main_v31 (F := F) (m ((c : Thread nD τ).loc main_arg1))) shapeCasts_S3300000_S3300000x1)
    (sitofp (F := F) .f32 (constantI S_ 32 0#32)) pads_S3300000x1_S3301376x1_013760_000 h_S_

theorem w4_v33 : W4 m ρ c (Proc.devRef .tc main_v33) = normPad m c := by
  have h32 := w3_v32 m ρ c
  have h7 := w3_c7 m ρ c
  show StableHlo.after hostOps0_3 (W3 m ρ c) (Proc.devRef .tc main_v33) = _
  generalize W3 m ρ c = V at h32 h7 ⊢
  read_stretch hostOps0_3
  rw [h32, h7]
  try rfl

theorem w5_v3 : W5 m ρ c (Proc.devRef .tc main_v3) = val_main_v3 (F := F) (m ((c : Thread nD τ).loc main_arg1)) :=
  calc W5 m ρ c (Proc.devRef .tc main_v3)
    _ = W4 m ρ c (Proc.devRef .tc main_v3) := by host_keeps hostOps0_4
    _ = W3 m ρ c (Proc.devRef .tc main_v3) := by host_keeps hostOps0_3
    _ = _ := w3_v3 m ρ c
theorem w5_v6 : W5 m ρ c (Proc.devRef .tc main_v6) = val_main_v6 (F := F) (m ((c : Thread nD τ).loc main_arg1)) :=
  calc W5 m ρ c (Proc.devRef .tc main_v6)
    _ = W4 m ρ c (Proc.devRef .tc main_v6) := by host_keeps hostOps0_4
    _ = W3 m ρ c (Proc.devRef .tc main_v6) := by host_keeps hostOps0_3
    _ = _ := w3_v6 m ρ c
theorem w5_v33 : W5 m ρ c (Proc.devRef .tc main_v33) = normPad m c :=
  calc W5 m ρ c (Proc.devRef .tc main_v33)
    _ = W4 m ρ c (Proc.devRef .tc main_v33) := by host_keeps hostOps0_4
    _ = _ := w4_v33 m ρ c
theorem w4_arg0 : W4 m ρ c (Proc.devRef .tc main_arg0) = m ((c : Thread nD τ).loc main_arg0) :=
  calc W4 m ρ c (Proc.devRef .tc main_arg0)
    _ = W3 m ρ c (Proc.devRef .tc main_arg0) := by host_keeps hostOps0_3
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = m ((c : Thread nD τ).loc main_arg0) := rfl
theorem w4_arg2 : W4 m ρ c (Proc.devRef .tc main_arg2) = m ((c : Thread nD τ).loc main_arg2) :=
  calc W4 m ρ c (Proc.devRef .tc main_arg2)
    _ = W3 m ρ c (Proc.devRef .tc main_arg2) := by host_keeps hostOps0_3
    _ = W2 m ρ c (Proc.devRef .tc main_arg2) := by host_keeps hostOps0_2
    _ = W1 m ρ c (Proc.devRef .tc main_arg2) := by host_keeps hostOps0_1
    _ = W0 m ρ c (Proc.devRef .tc main_arg2) := by host_keeps hostOps0
    _ = m ((c : Thread nD τ).loc main_arg2) := rfl
theorem w4_arg3 : W4 m ρ c (Proc.devRef .tc main_arg3) = m ((c : Thread nD τ).loc main_arg3) :=
  calc W4 m ρ c (Proc.devRef .tc main_arg3)
    _ = W3 m ρ c (Proc.devRef .tc main_arg3) := by host_keeps hostOps0_3
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = m ((c : Thread nD τ).loc main_arg3) := rfl
theorem w4_arg4 : W4 m ρ c (Proc.devRef .tc main_arg4) = m ((c : Thread nD τ).loc main_arg4) :=
  calc W4 m ρ c (Proc.devRef .tc main_arg4)
    _ = W3 m ρ c (Proc.devRef .tc main_arg4) := by host_keeps hostOps0_3
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = m ((c : Thread nD τ).loc main_arg4) := rfl
theorem w4_arg5 : W4 m ρ c (Proc.devRef .tc main_arg5) = m ((c : Thread nD τ).loc main_arg5) :=
  calc W4 m ρ c (Proc.devRef .tc main_arg5)
    _ = W3 m ρ c (Proc.devRef .tc main_arg5) := by host_keeps hostOps0_3
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = m ((c : Thread nD τ).loc main_arg5) := rfl
theorem w5_arg0 : W5 m ρ c (Proc.devRef .tc main_arg0) = m ((c : Thread nD τ).loc main_arg0) :=
  calc W5 m ρ c (Proc.devRef .tc main_arg0)
    _ = W4 m ρ c (Proc.devRef .tc main_arg0) := by host_keeps hostOps0_4
    _ = _ := w4_arg0 m ρ c
theorem w5_arg2 : W5 m ρ c (Proc.devRef .tc main_arg2) = m ((c : Thread nD τ).loc main_arg2) :=
  calc W5 m ρ c (Proc.devRef .tc main_arg2)
    _ = W4 m ρ c (Proc.devRef .tc main_arg2) := by host_keeps hostOps0_4
    _ = _ := w4_arg2 m ρ c
theorem w5_arg4 : W5 m ρ c (Proc.devRef .tc main_arg4) = m ((c : Thread nD τ).loc main_arg4) :=
  calc W5 m ρ c (Proc.devRef .tc main_arg4)
    _ = W4 m ρ c (Proc.devRef .tc main_arg4) := by host_keeps hostOps0_4
    _ = _ := w4_arg4 m ρ c
/-- The first bias as a row. -/
theorem w5_v34 : W5 m ρ c (Proc.devRef .tc main_v34) = shapeCast S1x16 (m ((c : Thread nD τ).loc main_arg3)) shapeCasts_S16_S1x16 := by
  have h := w4_arg3 m ρ c
  show StableHlo.after hostOps0_4 (W4 m ρ c) (Proc.devRef .tc main_v34) = _
  generalize W4 m ρ c = V at h ⊢
  read_stretch hostOps0_4
  rw [h]
  try rfl
/-- The second bias as a [1, 1] matrix. -/
theorem w5_v35 : W5 m ρ c (Proc.devRef .tc main_v35) = shapeCast S1x1 (m ((c : Thread nD τ).loc main_arg5)) shapeCasts_S1_S1x1 := by
  have h := w4_arg5 m ρ c
  show StableHlo.after hostOps0_4 (W4 m ρ c) (Proc.devRef .tc main_v35) = _
  generalize W4 m ρ c = V at h ⊢
  read_stretch hostOps0_4
  rw [h]
  try rfl

/-! ## The first linear layer's result, and the gather padded for the first scaling call -/

theorem w6_v36 : W6 m ρ c (Proc.devRef .tc main_v36) = (dat0 (V5 m ρ) c).arrAt 2 cfg0.N := W6_arr m ρ c 2
theorem w6_v3 : W6 m ρ c (Proc.devRef .tc main_v3) = val_main_v3 (F := F) (m ((c : Thread nD τ).loc main_arg1)) :=
  (W6_of_ne m ρ c main_v3 (by decide)).trans (w5_v3 m ρ c)

/-- The gather of an array of 16-entry rows at the source indices, padded below with zero rows. -/
abbrev gatherPad16 (G : (⟨S100000x16, .f32⟩ : BufTy).Contents (Elt F)) : (⟨S3301376x16, .f32⟩ : BufTy).Contents (Elt F) :=
  pad S3301376x16 ![0, 0] ![1376, 0] ![0, 0]
    (Host.gather gather_S100000x16_S3300000x1_S3300000x16_1_0_n_n_0_1_116 G (val_main_v38 (F := F) (m ((c : Thread nD τ).loc main_arg1))))
    (sitofp (F := F) .f32 (constantI S_ 32 0#32)) pads_S3300000x16_S3301376x16_013760_000 h_S_

theorem w8_v44 (G : (⟨S100000x16, .f32⟩ : BufTy).Contents (Elt F)) (hG : W6 m ρ c (Proc.devRef .tc main_v36) = G) :
    W8 m ρ c (Proc.devRef .tc main_v44) = gatherPad16 m c G := by
  have h3 := w6_v3 m ρ c
  show StableHlo.after hostOps1_1 (StableHlo.after hostOps1 (W6 m ρ c)) (Proc.devRef .tc main_v44) = _
  generalize W6 m ρ c = V at hG h3 ⊢
  simp only [hostOps1_1, hostOps1]
  after_results
  try simp only [StableHlo.TRef.ofBuf, StableHlo.TRef.toBuf, cast_eq]
  rw [hG, h3]
  try rfl
theorem w8_v33 : W8 m ρ c (Proc.devRef .tc main_v33) = normPad m c :=
  calc W8 m ρ c (Proc.devRef .tc main_v33)
    _ = W7 m ρ c (Proc.devRef .tc main_v33) := by host_keeps hostOps1_1
    _ = W6 m ρ c (Proc.devRef .tc main_v33) := by host_keeps hostOps1
    _ = W5 m ρ c (Proc.devRef .tc main_v33) := W6_of_ne m ρ c main_v33 (by decide)
    _ = _ := w5_v33 m ρ c
theorem w8_v6 : W8 m ρ c (Proc.devRef .tc main_v6) = val_main_v6 (F := F) (m ((c : Thread nD τ).loc main_arg1)) :=
  calc W8 m ρ c (Proc.devRef .tc main_v6)
    _ = W7 m ρ c (Proc.devRef .tc main_v6) := by host_keeps hostOps1_1
    _ = W6 m ρ c (Proc.devRef .tc main_v6) := by host_keeps hostOps1
    _ = W5 m ρ c (Proc.devRef .tc main_v6) := W6_of_ne m ρ c main_v6 (by decide)
    _ = _ := w5_v6 m ρ c

/-! ## The first scaling call's result, and its leading rows scatter-added -/

theorem w9_v45 : W9 m ρ c (Proc.devRef .tc main_v45)
    = Region1.scaleRows (W8 m ρ c (Proc.devRef .tc main_v44)) (W8 m ρ c (Proc.devRef .tc main_v33)) :=
  (W9_arr m ρ c 2).trans (Region1.final (V8 m ρ) c)
theorem w9_v6 : W9 m ρ c (Proc.devRef .tc main_v6) = val_main_v6 (F := F) (m ((c : Thread nD τ).loc main_arg1)) :=
  (W9_of_ne m ρ c main_v6 (by decide)).trans (w8_v6 m ρ c)

theorem w10_v49 (G : (⟨S3301376x16, .f32⟩ : BufTy).Contents (Elt F)) (hG : W9 m ρ c (Proc.devRef .tc main_v45) = G) :
    W10 m ρ c (Proc.devRef .tc main_v49)
      = Host.scatterAdd scatter_S100000x16_S3300000x1_S3300000x16_1_0_0_1
          (broadcastInDim S100000x16 ![] bcast_S_S100000x16 (constant (F := F) S_ .f32 0x00000000#32))
          (broadcastInDim S3300000x1 ![0] bcast_S3300000_S3300000x1_0 (val_main_v6 (F := F) (m ((c : Thread nD τ).loc main_arg1))))
          (extractStridedSlice S3300000x16 ![0, 0] G slices_S3301376x16_S3300000x16_0_0) := by
  have h6 := w9_v6 m ρ c
  show StableHlo.after hostOps2 (W9 m ρ c) (Proc.devRef .tc main_v49) = _
  generalize W9 m ρ c = V at hG h6 ⊢
  read_stretch hostOps2
  rw [hG, h6]
  try rfl

theorem w10_v34 : W10 m ρ c (Proc.devRef .tc main_v34) = shapeCast S1x16 (m ((c : Thread nD τ).loc main_arg3)) shapeCasts_S16_S1x16 :=
  calc W10 m ρ c (Proc.devRef .tc main_v34)
    _ = W9 m ρ c (Proc.devRef .tc main_v34) := by host_keeps hostOps2
    _ = W8 m ρ c (Proc.devRef .tc main_v34) := W9_of_ne m ρ c main_v34 (by decide)
    _ = W7 m ρ c (Proc.devRef .tc main_v34) := by host_keeps hostOps1_1
    _ = W6 m ρ c (Proc.devRef .tc main_v34) := by host_keeps hostOps1
    _ = W5 m ρ c (Proc.devRef .tc main_v34) := W6_of_ne m ρ c main_v34 (by decide)
    _ = _ := w5_v34 m ρ c
theorem w10_arg4 : W10 m ρ c (Proc.devRef .tc main_arg4) = m ((c : Thread nD τ).loc main_arg4) :=
  calc W10 m ρ c (Proc.devRef .tc main_arg4)
    _ = W9 m ρ c (Proc.devRef .tc main_arg4) := by host_keeps hostOps2
    _ = W8 m ρ c (Proc.devRef .tc main_arg4) := W9_of_ne m ρ c main_arg4 (by decide)
    _ = W7 m ρ c (Proc.devRef .tc main_arg4) := by host_keeps hostOps1_1
    _ = W6 m ρ c (Proc.devRef .tc main_arg4) := by host_keeps hostOps1
    _ = W5 m ρ c (Proc.devRef .tc main_arg4) := W6_of_ne m ρ c main_arg4 (by decide)
    _ = _ := w5_arg4 m ρ c
theorem w10_v3 : W10 m ρ c (Proc.devRef .tc main_v3) = val_main_v3 (F := F) (m ((c : Thread nD τ).loc main_arg1)) :=
  calc W10 m ρ c (Proc.devRef .tc main_v3)
    _ = W9 m ρ c (Proc.devRef .tc main_v3) := by host_keeps hostOps2
    _ = W8 m ρ c (Proc.devRef .tc main_v3) := W9_of_ne m ρ c main_v3 (by decide)
    _ = W7 m ρ c (Proc.devRef .tc main_v3) := by host_keeps hostOps1_1
    _ = W6 m ρ c (Proc.devRef .tc main_v3) := by host_keeps hostOps1
    _ = _ := w6_v3 m ρ c
theorem w10_v6 : W10 m ρ c (Proc.devRef .tc main_v6) = val_main_v6 (F := F) (m ((c : Thread nD τ).loc main_arg1)) :=
  calc W10 m ρ c (Proc.devRef .tc main_v6)
    _ = W9 m ρ c (Proc.devRef .tc main_v6) := by host_keeps hostOps2
    _ = _ := w9_v6 m ρ c
theorem w10_v33 : W10 m ρ c (Proc.devRef .tc main_v33) = normPad m c :=
  calc W10 m ρ c (Proc.devRef .tc main_v33)
    _ = W9 m ρ c (Proc.devRef .tc main_v33) := by host_keeps hostOps2
    _ = W8 m ρ c (Proc.devRef .tc main_v33) := (W9_arr m ρ c 1).trans (((dat1 (V8 m ρ) c).arrAt_in 1 rfl _).trans (A_eq1 (V8 m ρ) c 1))
    _ = _ := w8_v33 m ρ c

/-! ## The second linear layer's result, and the gather padded for the second scaling call -/

theorem w11_v50 : W11 m ρ c (Proc.devRef .tc main_v50) = (dat2 (V10 m ρ) c).arrAt 3 cfg2.N := W11_arr m ρ c 3
theorem w11_v3 : W11 m ρ c (Proc.devRef .tc main_v3) = val_main_v3 (F := F) (m ((c : Thread nD τ).loc main_arg1)) :=
  (W11_of_ne m ρ c main_v3 (by decide)).trans (w10_v3 m ρ c)

/-- The gather of a column at the source indices, padded below with zero rows. -/
abbrev gatherPad1 (G : (⟨S100000x1, .f32⟩ : BufTy).Contents (Elt F)) : (⟨S3301376x1, .f32⟩ : BufTy).Contents (Elt F) :=
  pad S3301376x1 ![0, 0] ![1376, 0] ![0, 0]
    (Host.gather gather_S100000x1_S3300000x1_S3300000x1_1_0_n_n_0_1_11 G (val_main_v56 (F := F) (m ((c : Thread nD τ).loc main_arg1))))
    (sitofp (F := F) .f32 (constantI S_ 32 0#32)) pads_S3300000x1_S3301376x1_013760_000 h_S_

theorem w13_v58 (G : (⟨S100000x1, .f32⟩ : BufTy).Contents (Elt F)) (hG : W11 m ρ c (Proc.devRef .tc main_v50) = G) :
    W13 m ρ c (Proc.devRef .tc main_v58) = gatherPad1 m c G := by
  have h3 := w11_v3 m ρ c
  show StableHlo.after hostOps3_1 (StableHlo.after hostOps3 (W11 m ρ c)) (Proc.devRef .tc main_v58) = _
  generalize W11 m ρ c = V at hG h3 ⊢
  simp only [hostOps3_1, hostOps3]
  after_results
  try simp only [StableHlo.TRef.ofBuf, StableHlo.TRef.toBuf, cast_eq]
  rw [hG, h3]
  try rfl
theorem w13_v33 : W13 m ρ c (Proc.devRef .tc main_v33) = normPad m c :=
  calc W13 m ρ c (Proc.devRef .tc main_v33)
    _ = W12 m ρ c (Proc.devRef .tc main_v33) := by host_keeps hostOps3_1
    _ = W11 m ρ c (Proc.devRef .tc main_v33) := by host_keeps hostOps3
    _ = W10 m ρ c (Proc.devRef .tc main_v33) := W11_of_ne m ρ c main_v33 (by decide)
    _ = _ := w10_v33 m ρ c
theorem w13_v6 : W13 m ρ c (Proc.devRef .tc main_v6) = val_main_v6 (F := F) (m ((c : Thread nD τ).loc main_arg1)) :=
  calc W13 m ρ c (Proc.devRef .tc main_v6)
    _ = W12 m ρ c (Proc.devRef .tc main_v6) := by host_keeps hostOps3_1
    _ = W11 m ρ c (Proc.devRef .tc main_v6) := by host_keeps hostOps3
    _ = W10 m ρ c (Proc.devRef .tc main_v6) := W11_of_ne m ρ c main_v6 (by decide)
    _ = _ := w10_v6 m ρ c

/-! ## The second scaling call's result, and its leading rows scatter-added -/

theorem w14_v59 : W14 m ρ c (Proc.devRef .tc main_v59)
    = mulf (W13 m ρ c (Proc.devRef .tc main_v58) : S3301376x1.Idx → Elt F .f32) (W13 m ρ c (Proc.devRef .tc main_v33)) :=
  (W14_arr m ρ c 2).trans (Region3.final (V13 m ρ) c)
theorem w14_v6 : W14 m ρ c (Proc.devRef .tc main_v6) = val_main_v6 (F := F) (m ((c : Thread nD τ).loc main_arg1)) :=
  (W14_of_ne m ρ c main_v6 (by decide)).trans (w13_v6 m ρ c)

theorem w15_v63 (G : (⟨S3301376x1, .f32⟩ : BufTy).Contents (Elt F)) (hG : W14 m ρ c (Proc.devRef .tc main_v59) = G) :
    W15 m ρ c (Proc.devRef .tc main_v63)
      = Host.scatterAdd scatter_S100000x1_S3300000x1_S3300000x1_1_0_0_1
          (broadcastInDim S100000x1 ![] bcast_S_S100000x1 (constant (F := F) S_ .f32 0x00000000#32))
          (broadcastInDim S3300000x1 ![0] bcast_S3300000_S3300000x1_0 (val_main_v6 (F := F) (m ((c : Thread nD τ).loc main_arg1))))
          (extractStridedSlice S3300000x1 ![0, 0] G slices_S3301376x1_S3300000x1_0_0) := by
  have h6 := w14_v6 m ρ c
  show StableHlo.after hostOps4 (W14 m ρ c) (Proc.devRef .tc main_v63) = _
  generalize W14 m ρ c = V at hG h6 ⊢
  read_stretch hostOps4
  rw [hG, h6]
  try rfl
theorem w15_v35 : W15 m ρ c (Proc.devRef .tc main_v35) = shapeCast S1x1 (m ((c : Thread nD τ).loc main_arg5)) shapeCasts_S1_S1x1 :=
  calc W15 m ρ c (Proc.devRef .tc main_v35)
    _ = W14 m ρ c (Proc.devRef .tc main_v35) := by host_keeps hostOps4
    _ = W13 m ρ c (Proc.devRef .tc main_v35) := W14_of_ne m ρ c main_v35 (by decide)
    _ = W12 m ρ c (Proc.devRef .tc main_v35) := by host_keeps hostOps3_1
    _ = W11 m ρ c (Proc.devRef .tc main_v35) := by host_keeps hostOps3
    _ = W10 m ρ c (Proc.devRef .tc main_v35) := W11_of_ne m ρ c main_v35 (by decide)
    _ = W9 m ρ c (Proc.devRef .tc main_v35) := by host_keeps hostOps2
    _ = W8 m ρ c (Proc.devRef .tc main_v35) := W9_of_ne m ρ c main_v35 (by decide)
    _ = W7 m ρ c (Proc.devRef .tc main_v35) := by host_keeps hostOps1_1
    _ = W6 m ρ c (Proc.devRef .tc main_v35) := by host_keeps hostOps1
    _ = W5 m ρ c (Proc.devRef .tc main_v35) := W6_of_ne m ρ c main_v35 (by decide)
    _ = _ := w5_v35 m ρ c

/-! ## The last call's result -/

theorem w16_v64 : W16 m ρ c (Proc.devRef .tc main_v64) = (dat4 (V15 m ρ) c).arrAt 2 cfg4.N := W16_arr m ρ c 2

end Cert.KernelIdeal.Fold

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Region0.lean ====
/-
  The first linear layer. Its grid has 10 points; point t holds rows 10000 t … 10000 t + 9999 of the [100000, 128]
  matrix x and the whole [128, 16] matrix w, and writes back the same rows of the product. The body multiplies its
  block of x by w into a zero accumulator; over the extended reals a change of float format is the identity, so entry
  (p, q) of what it stores is the sum over k of the block at (p, k) times w at (k, q). The ten blocks tile the 100000
  rows exactly, so the result array ends as the one function (r, q) ↦ Σ_k x (r, k) · w (k, q) of the two arrays the
  call finds on entry.
-/
import proofs.«114095_j29265907155119_1_alg».proof.Proof.Gen.KernelIdeal.Frame
import proofs.«114095_j29265907155119_1_alg».proof.Proof.LibPlainMatmul
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays as the call finds them, at their literal types. -/
abbrev xarr (c : Dev nD) : FVec Ideal S100000x128 .f32 := V c main_arg0
abbrev warr (c : Dev nD) : FVec Ideal S128x16 .f32 := V c main_arg2

/-- The rows of x against the columns of w. -/
def rowsDot {N K M : Nat} (x : FVec Ideal ⟨2, ![N, K]⟩ .f32) (w : FVec Ideal ⟨2, ![K, M]⟩ .f32) : FVec Ideal ⟨2, ![N, M]⟩ .f32 :=
  fun i => ∑ k : Fin K, x (ix2 (i 0) k) * w (ix2 k (i 1))

/-- Entry (p, q) of what the body stores: the block's row p against w's column q. -/
theorem pay_apply (x0 : Vec Ideal S10000x128 .f32) (x1 : Vec Ideal S128x16 .f32) (j : S10000x16.Idx) :
    k0_pay1 x0 x1 j = ∑ k : Fin 128, x0 (ix2 (j 0) k) * x1 (ix2 k (j 1)) := by
  obtain ⟨p, q, rfl⟩ : ∃ (p : Fin 10000) (q : Fin 16), j = ix2 p q := ⟨j 0, j 1, eq_ix2 j⟩
  unfold k0_pay1
  exact Cert.LibPlainMatmul.matmul_plain_apply (M := 10000) (K := 128) (N := 16) none x0 x1 p q

/-- The three index maps, decided over the grid: x's and the result's windows are on block row t, w's on its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product. -/
theorem flushed_eq (c : Dev nD) (t : Fin cfg0.N) :
    (dat0 V c).flushed 2 t = ((cfg0.win 2).blk t).view.read (Elt Ideal)
      (rowsDot (xarr V c) (warr V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨e0, e1, e2, e3, e4, e5⟩ := idx_facts t
  funext j
  show k0_pay1 (iblk0 V c 0 t) (iblk0 V c 1 t) j
    = rowsDot (xarr V c) (warr V c) (((cfg0.win 2).blk t).view.emb j)
  refine (pay_apply (iblk0 V c 0 t) (iblk0 V c 1 t) j).trans ?_
  unfold rowsDot
  refine Finset.sum_congr rfl fun k _ => ?_
  show xarr V c (((cfg0.win 0).blk t).view.emb (ix2 (j 0) k)) * warr V c (((cfg0.win 1).blk t).view.emb (ix2 k (j 1)))
    = xarr V c (ix2 ((((cfg0.win 2).blk t).view.emb j) 0) k) * warr V c (ix2 k ((((cfg0.win 2).blk t).view.emb j) 1))
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 16 + 1 * (j 1).val = win0_2.index t (1 : Fin 2) * 16 + 1 * (j 1).val; omega
  rw [h0, h1] <;> rfl

/-- An index of the array is in point t's block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v36).slice (win0_2.rect t)).set ↔ _
  rw [View.set_slice_whole, Rect.mem_set_unit]
  exact Iff.rfl

/-- Every index lies in some written-back block: row r is in block r / 10000. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  let t : Fin cfg0.N := ⟨(i 0).val / 10000, by show (i 0).val / 10000 < grid0.N; rw [hN]; omega⟩
  obtain ⟨e0, e1, e2, e3, e4, e5⟩ := idx_facts t
  have ht : t.val = (i 0).val / 10000 := rfl
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 16 ≤ (i 1).val ∧ (i 1).val < win0_2.index t (1 : Fin 2) * 16 + 16; omega

/-- The result array after the call: the rows of x against the columns of w, as the call finds them. -/
theorem final (c : Dev nD) : (dat0 V c).arrAt 2 cfg0.N
    = rowsDot (xarr V c) (warr V c) :=
  (dat0 V c).arrAt_eq_of_cover 2 _ (fun t _ => flushed_eq V c t) (cover)

end Cert.KernelIdeal.Region0

end
-- ==== Proof.Region2.lean ====
/-
  The fused bias, rectifier and second linear layer. The grid has 10 points; point t holds rows 10000 t … 10000 t + 9999
  of the [100000, 16] matrix a, the whole [1, 16] bias row b and the whole [16, 1] matrix w, and writes back the same
  rows of the result. The body adds the bias row to every row of its block, takes the maximum with zero, and multiplies
  by w into a zero accumulator; over the extended reals a change of float format is the identity. So entry (p, 0) of
  what it stores is Σ_k max (a (p, k) + b (0, k)) 0 · w (k, 0), and since the ten blocks tile the rows exactly the
  result array ends as that one function of the three arrays the call finds on entry.
-/
import proofs.«114095_j29265907155119_1_alg».proof.Proof.Gen.KernelIdeal.Frame
import proofs.«114095_j29265907155119_1_alg».proof.Proof.LibPlainMatmul
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three arrays as the call finds them, at their literal types. -/
abbrev aarr (c : Dev nD) : FVec Ideal S100000x16 .f32 := V c main_v49
abbrev barr (c : Dev nD) : FVec Ideal S1x16 .f32 := V c main_v34
abbrev warr (c : Dev nD) : FVec Ideal S16x1 .f32 := V c main_arg4

/-- Every row of a plus the bias row, cut off below at the zero pattern's value, against the columns of w. -/
def biasReluDot {N K M : Nat} (a : FVec Ideal ⟨2, ![N, K]⟩ .f32) (b : FVec Ideal ⟨2, ![1, K]⟩ .f32) (w : FVec Ideal ⟨2, ![K, M]⟩ .f32) :
    FVec Ideal ⟨2, ![N, M]⟩ .f32 :=
  fun i => ∑ k : Fin K, max (a (ix2 (i 0) k) + b (ix2 (0 : Fin 1) k)) (Ideal.ofBits .f32 0x00000000#32) * w (ix2 k (i 1))

/-- The rectified block at (p, k). -/
theorem relu_apply (x0 : Vec Ideal S10000x16 .f32) (x1 : Vec Ideal S1x16 .f32) (p : Fin 10000) (k : Fin 16) :
    maximumf (addf (shapeCast S10000x16 x0 shapeCasts_S10000x16_S10000x16)
        (broadcastTo S10000x16 (shapeCast S1x16 x1 shapeCasts_S1x16_S1x16) broadcasts_S1x16_S10000x16))
      (broadcast S10000x16 (Scalar.ofBits (F := Ideal) .f32 0x00000000#32)) (ix2 p k)
    = max (x0 (ix2 p k) + x1 (ix2 (0 : Fin 1) k)) (Ideal.ofBits .f32 0x00000000#32) := by
  show max (shapeCast S10000x16 x0 shapeCasts_S10000x16_S10000x16 (ix2 p k)
      + broadcastTo S10000x16 (shapeCast S1x16 x1 shapeCasts_S1x16_S1x16) broadcasts_S1x16_S10000x16 (ix2 p k)) _ = _
  rw [shapeCast_self, shapeCast_self]
  refine congrArg (fun z => max (x0 (ix2 p k) + z) (Ideal.ofBits .f32 0x00000000#32)) ?_
  refine broadcastTo_apply x1 broadcasts_S1x16_S10000x16 (ix2 p k) (ix2 (0 : Fin 1) k) fun a => ?_
  match a with
  | ⟨0, _⟩ => rfl
  | ⟨1, _⟩ => rfl

/-- Entry (p, q) of what the body stores. -/
theorem pay_apply (x0 : Vec Ideal S10000x16 .f32) (x1 : Vec Ideal S1x16 .f32) (x2 : Vec Ideal S16x1 .f32) (j : S10000x1.Idx) :
    k2_pay1 x0 x1 x2 j = ∑ k : Fin 16, max (x0 (ix2 (j 0) k) + x1 (ix2 (0 : Fin 1) k)) (Ideal.ofBits .f32 0x00000000#32) * x2 (ix2 k (j 1)) := by
  obtain ⟨p, q, rfl⟩ : ∃ (p : Fin 10000) (q : Fin 1), j = ix2 p q := ⟨j 0, j 1, eq_ix2 j⟩
  unfold k2_pay1
  refine (Cert.LibPlainMatmul.matmul_plain_apply (M := 10000) (K := 16) (N := 1) (φ₁ := .bf16) (φ₂ := .bf16) none _ _ p q).trans ?_
  refine Finset.sum_congr rfl fun k _ => ?_
  exact congrArg (· * x2 (ix2 k q)) (relu_apply x0 x1 p k)

/-- The four index maps, decided over the grid. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the layer's result. -/
theorem flushed_eq (c : Dev nD) (t : Fin cfg2.N) :
    (dat2 V c).flushed 3 t = ((cfg2.win 3).blk t).view.read (Elt Ideal)
      (biasReluDot (aarr V c) (barr V c) (warr V c)) := by
  show (cfg2.win 3).cut (grid2.coords t) ((dat2 V c).after 3 t) = _
  rw [after2_3]
  unfold out2_3
  rw [View.canon_unit_zero hz]
  simp only [View.ld_unit_zero (S := S10000x16) hz, View.ld_unit_zero (S := S1x16) hz, View.ld_unit_zero (S := S16x1) hz]
  obtain ⟨e0, e1, e2, e3, e4, e5, e6, e7⟩ := idx_facts t
  funext j
  show k2_pay1 (iblk2 V c 0 t) (iblk2 V c 1 t) (iblk2 V c 2 t) j
    = biasReluDot (aarr V c) (barr V c) (warr V c) (((cfg2.win 3).blk t).view.emb j)
  refine (pay_apply (iblk2 V c 0 t) (iblk2 V c 1 t) (iblk2 V c 2 t) j).trans ?_
  unfold biasReluDot
  refine Finset.sum_congr rfl fun k _ => ?_
  show max (aarr V c (((cfg2.win 0).blk t).view.emb (ix2 (j 0) k)) + barr V c (((cfg2.win 1).blk t).view.emb (ix2 (0 : Fin 1) k))) (Ideal.ofBits .f32 0x00000000#32)
      * warr V c (((cfg2.win 2).blk t).view.emb (ix2 k (j 1)))
    = max (aarr V c (ix2 ((((cfg2.win 3).blk t).view.emb j) 0) k) + barr V c (ix2 (0 : Fin 1) k)) (Ideal.ofBits .f32 0x00000000#32)
      * warr V c (ix2 k ((((cfg2.win 3).blk t).view.emb j) 1))
  have h0 : ((cfg2.win 0).blk t).view.emb (ix2 (j 0) k) = ix2 ((((cfg2.win 3).blk t).view.emb j) 0) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 16 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 16 + 1 * k.val = k.val; omega
  have h2 : ((cfg2.win 2).blk t).view.emb (ix2 k (j 1)) = ix2 k ((((cfg2.win 3).blk t).view.emb j) 1) := by
    funext a; apply Fin.ext
    match a with
    | ⟨0, _⟩ => show win2_2.index t (0 : Fin 2) * 16 + 1 * k.val = k.val; omega
    | ⟨1, _⟩ => show win2_2.index t (1 : Fin 2) * 1 + 1 * (j 1).val = win2_3.index t (1 : Fin 2) * 1 + 1 * (j 1).val; omega
  rw [h0, h1, h2] <;> rfl

/-- An index of the array is in point t's block iff each coordinate is in the block's range on its axis. -/
theorem mem_blk (t : Fin cfg2.N) (i : S100000x1.Idx) :
    i ∈ ((cfg2.win 3).blk t).view.set ↔ ∀ a : Fin 2, win2_3.index t a * S10000x1.size a ≤ (i a).val ∧ (i a).val < win2_3.index t a * S10000x1.size a + S10000x1.size a := by
  show i ∈ ((View.whole main_v50).slice (win2_3.rect t)).set ↔ _
  rw [View.set_slice_whole, Rect.mem_set_unit]
  exact Iff.rfl

/-- Every index lies in some written-back block: row r is in block r / 10000. -/
theorem cover (i : S100000x1.Idx) : ∃ t : Fin cfg2.N, (cfg2.win 3).flush t = true ∧ i ∈ ((cfg2.win 3).blk t).view.set := by
  have hi0 : (i 0).val < 100000 := (i 0).isLt
  have hi1 : (i 1).val < 1 := (i 1).isLt
  have hN : grid2.N = 10 := N_2
  let t : Fin cfg2.N := ⟨(i 0).val / 10000, by show (i 0).val / 10000 < grid2.N; rw [hN]; omega⟩
  obtain ⟨e0, e1, e2, e3, e4, e5, e6, e7⟩ := idx_facts t
  have ht : t.val = (i 0).val / 10000 := rfl
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 1 ≤ (i 1).val ∧ (i 1).val < win2_3.index t (1 : Fin 2) * 1 + 1; omega

/-- The result array after the call. -/
theorem final (c : Dev nD) : (dat2 V c).arrAt 3 cfg2.N
    = biasReluDot (aarr V c) (barr V c) (warr V c) :=
  (dat2 V c).arrAt_eq_of_cover 3 _ (fun t _ => flushed_eq V c t) (cover)

end Cert.KernelIdeal.Region2

end
-- ==== Proof.Region4.lean ====
/-
  The bias and log-softmax call. The grid has 10 points; point t holds rows 10000 t … 10000 t + 9999 of the [100000, 1]
  column a and the [1, 1] bias b, and writes back the same rows of the result. Every row has ONE entry
  y = a (r, 0) + b (0, 0). The body takes the row maximum from −∞, which over the extended reals is y itself (−∞ is
  the bottom), subtracts it, exponentiates, sums the row's one entry, takes the logarithm and subtracts: the entry
  stored is (y − y) − log (exp (y − y)), read with the extended reals' conventions. The ten blocks tile the rows, so
  the result array ends as that one function of the two arrays the call finds on entry.
-/
import proofs.«114095_j29265907155119_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The two arrays as the call finds them, at their literal types. -/
abbrev aarr (c : Dev nD) : FVec Ideal S100000x1 .f32 := V c main_v63
abbrev barr (c : Dev nD) : FVec Ideal S1x1 .f32 := V c main_v35

/-- The log-softmax of a row with the one entry y. -/
def logSoftmaxOne (y : EReal) : EReal := (y - y) - Ideal.log (Ideal.exp (y - y))

/-- The bias added to a column, then each one-entry row's log-softmax. -/
def biasLogSoftmax {N : Nat} (a : FVec Ideal ⟨2, ![N, 1]⟩ .f32) (b : FVec Ideal ⟨2, ![1, 1]⟩ .f32) : FVec Ideal ⟨2, ![N, 1]⟩ .f32 :=
  fun i => logSoftmaxOne (a i + b (ix2 (0 : Fin 1) (0 : Fin 1)))

/-- The f32 pattern of −∞ is the bottom of the extended reals. -/
theorem ofBits_neg_inf : Ideal.ofBits .f32 0xFF800000#32 = ⊥ := by simp [Ideal.ofBits, Ideal.ieee]

/-- Over a column, the source index of row p with the one coordinate put back on the reduced axis is (p, 0). -/
theorem lift_col {n : Nat} (h : (⟨2, ![n, 1]⟩ : Shape).Reduces [1] (⟨1, ![n]⟩ : Shape)) (p : Fin n)
    (k : Fin ((⟨2, ![n, 1]⟩ : Shape).size 1)) : h.lift (ix1 p) k = ix2 p (0 : Fin 1) := by
  have hk : k.val = 0 := by have := k.isLt; simp at this; omega
  funext c; apply Fin.ext
  fin_cases c
  · rfl
  · show k.val = 0; exact hk

/-- A fold of max over the one index of Fin 1. -/
theorem fold_max_one (f : Fin 1 → EReal) (b : EReal) : (Finset.univ : Finset (Fin 1)).fold max b f = max (f 0) b := by
  rw [Finset.univ_unique, Finset.fold_singleton]; rfl

/-- The maximum along a one-entry row, from −∞, is the entry. -/
theorem max_col {n : Nat} (v : FVec Ideal ⟨2, ![n, 1]⟩ .f32) (h : (⟨2, ![n, 1]⟩ : Shape).Reduces [1] (⟨1, ![n]⟩ : Shape))
    (hφ : FKind.Formats .f32) (hacc : (0xFF800000#32 : BitVec 32) = FKind.maximumf.neutral .f32 hφ) (p : Fin n) :
    multiReduction .maximumf [1] ⟨1, ![n]⟩ v 0xFF800000#32 h hφ hacc (ix1 p) = v (ix2 p (0 : Fin 1)) := by
  rw [Ideal.multiReduction_maximumf_single]
  refine (fold_max_one (v ∘ h.lift (ix1 p)) (Ideal.ofBits .f32 0xFF800000#32)).trans ?_
  rw [ofBits_neg_inf, max_bot_right]
  exact congrArg v (lift_col h p (0 : Fin 1))

/-- The sum along a one-entry row is the entry. -/
theorem sum_col {n : Nat} (v : FVec Ideal ⟨2, ![n, 1]⟩ .f32) (h : (⟨2, ![n, 1]⟩ : Shape).Reduces [1] (⟨1, ![n]⟩ : Shape))
    (hφ : FKind.Formats .f32) (hacc : (0x00000000#32 : BitVec 32) = FKind.add.neutral .f32 hφ) (p : Fin n) :
    multiReduction .add [1] ⟨1, ![n]⟩ v 0x00000000#32 h hφ hacc (ix1 p) = v (ix2 p (0 : Fin 1)) := by
  rw [Ideal.multiReduction_add_single]
  refine (Fin.sum_univ_one (fun k : Fin 1 => v (h.lift (ix1 p) k))).trans ?_
  exact congrArg v (lift_col h p (0 : Fin 1))

/-- A vector of n entries laid as a column, read at (p, q), is the vector at p. -/
theorem col_apply {n : Nat} (v : (⟨1, ![n]⟩ : Shape).Idx → EReal) (h : (⟨1, ![n]⟩ : Shape).ShapeCasts ⟨2, ![n, 1]⟩) (p : Fin n) (q : Fin 1) :
    shapeCast ⟨2, ![n, 1]⟩ v h (ix2 p q) = v (ix1 p) := by
  refine shapeCast_apply v h (ix2 p q) (ix1 p) ?_
  rw [Shape.rowMajor_val_one, Shape.rowMajor_val_two]
  show p.val = p.val * 1 + q.val
  have := q.isLt; omega

/-- The body after the bias is added, on any column v5 of 10000 one-entry rows: the row maximum is the entry, the row
    sum of the exponentials is the one exponential. -/
theorem tail_apply (v5 : FVec Ideal S10000x1 .f32) (p : Fin 10000) :
    subf (subf v5 (shapeCast S10000x1 (multiReduction .maximumf [1] S10000 v5 0xFF800000#32 reduces_S10000x1_S10000 (.inl rfl) rfl) shapeCasts_S10000_S10000x1))
        (log (shapeCast S10000x1 (multiReduction .add [1] S10000
          (exp (subf v5 (shapeCast S10000x1 (multiReduction .maximumf [1] S10000 v5 0xFF800000#32 reduces_S10000x1_S10000 (.inl rfl) rfl) shapeCasts_S10000_S10000x1)))
          0x00000000#32 reduces_S10000x1_S10000 (.inl rfl) rfl) shapeCasts_S10000_S10000x1))
      (ix2 p (0 : Fin 1)) = logSoftmaxOne (v5 (ix2 p (0 : Fin 1))) := by
  have hm : shapeCast S10000x1 (multiReduction .maximumf [1] S10000 v5 0xFF800000#32 reduces_S10000x1_S10000 (.inl rfl) rfl) shapeCasts_S10000_S10000x1 (ix2 p (0 : Fin 1))
      = v5 (ix2 p (0 : Fin 1)) :=
    (col_apply _ shapeCasts_S10000_S10000x1 p 0).trans (max_col v5 reduces_S10000x1_S10000 (.inl rfl) rfl p)
  have hsh : subf v5 (shapeCast S10000x1 (multiReduction .maximumf [1] S10000 v5 0xFF800000#32 reduces_S10000x1_S10000 (.inl rfl) rfl) shapeCasts_S10000_S10000x1) (ix2 p (0 : Fin 1))
      = v5 (ix2 p (0 : Fin 1)) - v5 (ix2 p (0 : Fin 1)) :=
    congrArg (v5 (ix2 p (0 : Fin 1)) - ·) hm
  have hs : shapeCast S10000x1 (multiReduction .add [1] S10000
        (exp (subf v5 (shapeCast S10000x1 (multiReduction .maximumf [1] S10000 v5 0xFF800000#32 reduces_S10000x1_S10000 (.inl rfl) rfl) shapeCasts_S10000_S10000x1)))
        0x00000000#32 reduces_S10000x1_S10000 (.inl rfl) rfl) shapeCasts_S10000_S10000x1 (ix2 p (0 : Fin 1))
      = Ideal.exp (v5 (ix2 p (0 : Fin 1)) - v5 (ix2 p (0 : Fin 1))) :=
    ((col_apply _ shapeCasts_S10000_S10000x1 p 0).trans (sum_col _ reduces_S10000x1_S10000 (.inl rfl) rfl p)).trans
      (congrArg Ideal.exp hsh)
  show subf v5 _ (ix2 p (0 : Fin 1)) - Ideal.log (shapeCast S10000x1 _ shapeCasts_S10000_S10000x1 (ix2 p (0 : Fin 1))) = _
  rw [hsh, hs]
  rfl

/-- The block with the bias added, at (p, 0). -/
theorem biased_apply (x0 : Vec Ideal S10000x1 .f32) (x1 : Vec Ideal S1x1 .f32) (p : Fin 10000) :
    addf (F := Ideal) (φ := .f32) (shapeCast S10000x1 x0 shapeCasts_S10000x1_S10000x1)
        (broadcastTo S10000x1 (shapeCast S1x1 x1 shapeCasts_S1x1_S1x1) broadcasts_S1x1_S10000x1) (ix2 p (0 : Fin 1))
      = x0 (ix2 p (0 : Fin 1)) + x1 (ix2 (0 : Fin 1) (0 : Fin 1)) := by
  show shapeCast S10000x1 x0 shapeCasts_S10000x1_S10000x1 (ix2 p (0 : Fin 1))
    + broadcastTo S10000x1 (shapeCast S1x1 x1 shapeCasts_S1x1_S1x1) broadcasts_S1x1_S10000x1 (ix2 p (0 : Fin 1)) = _
  rw [shapeCast_self, shapeCast_self]
  refine congrArg (x0 (ix2 p (0 : Fin 1)) + ·) ?_
  refine broadcastTo_apply x1 broadcasts_S1x1_S10000x1 (ix2 p (0 : Fin 1)) (ix2 (0 : Fin 1) (0 : Fin 1)) fun a => ?_
  match a with
  | ⟨0, _⟩ => rfl
  | ⟨1, _⟩ => rfl

/-- Entry (p, q) of what the body stores: the log-softmax of the one-entry row. -/
theorem pay_apply (x0 : Vec Ideal S10000x1 .f32) (x1 : Vec Ideal S1x1 .f32) (j : S10000x1.Idx) :
    k4_pay1 x0 x1 j = logSoftmaxOne (x0 j + x1 (ix2 (0 : Fin 1) (0 : Fin 1))) := by
  obtain ⟨p, q, rfl⟩ : ∃ (p : Fin 10000) (q : Fin 1), j = ix2 p q := ⟨j 0, j 1, eq_ix2 j⟩
  have hq : q = 0 := Fin.ext (by have := q.isLt; omega)
  subst hq
  unfold k4_pay1
  refine (tail_apply (addf (F := Ideal) (φ := .f32) (shapeCast S10000x1 x0 shapeCasts_S10000x1_S10000x1)
    (broadcastTo S10000x1 (shapeCast S1x1 x1 shapeCasts_S1x1_S1x1) broadcasts_S1x1_S10000x1)) p).trans ?_
  exact congrArg logSoftmaxOne (biased_apply x0 x1 p)

/-- The three index maps, decided over the grid. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the result. -/
theorem flushed_eq (c : Dev nD) (t : Fin cfg4.N) :
    (dat4 V c).flushed 2 t = ((cfg4.win 2).blk t).view.read (Elt Ideal)
      (biasLogSoftmax (aarr V c) (barr V c)) := by
  show (cfg4.win 2).cut (grid4.coords t) ((dat4 V c).after 2 t) = _
  rw [after4_2]
  unfold out4_2
  rw [View.canon_unit_zero hz]
  simp only [View.ld_unit_zero (S := S10000x1) hz, View.ld_unit_zero (S := S1x1) hz]
  obtain ⟨e0, e1, e2, e3, e4, e5⟩ := idx_facts t
  funext j
  show k4_pay1 (iblk4 V c 0 t) (iblk4 V c 1 t) j
    = biasLogSoftmax (aarr V c) (barr V c) (((cfg4.win 2).blk t).view.emb j)
  refine (pay_apply (iblk4 V c 0 t) (iblk4 V c 1 t) j).trans ?_
  unfold biasLogSoftmax
  show logSoftmaxOne (aarr V c (((cfg4.win 0).blk t).view.emb j) + barr V c (((cfg4.win 1).blk t).view.emb (ix2 (0 : Fin 1) (0 : Fin 1))))
    = logSoftmaxOne (aarr V c (((cfg4.win 2).blk t).view.emb j) + barr V c (ix2 (0 : Fin 1) (0 : Fin 1)))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 1 + 1 * (j 1).val = win4_2.index t (1 : Fin 2) * 1 + 1 * (j 1).val; omega
  have h1 : ((cfg4.win 1).blk t).view.emb (ix2 (0 : Fin 1) (0 : Fin 1)) = ix2 (0 : Fin 1) (0 : Fin 1) := by
    funext a; apply Fin.ext
    match a with
    | ⟨0, _⟩ => show win4_1.index t (0 : Fin 2) * 1 + 1 * 0 = 0; omega
    | ⟨1, _⟩ => show win4_1.index t (1 : Fin 2) * 1 + 1 * 0 = 0; omega
  rw [h0, h1] <;> rfl

/-- An index of the array is in point t's block iff each coordinate is in the block's range on its axis. -/
theorem mem_blk (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v64).slice (win4_2.rect t)).set ↔ _
  rw [View.set_slice_whole, Rect.mem_set_unit]
  exact Iff.rfl

/-- Every index lies in some written-back block: row r is in block r / 10000. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : grid4.N = 10 := N_4
  let t : Fin cfg4.N := ⟨(i 0).val / 10000, by show (i 0).val / 10000 < grid4.N; rw [hN]; omega⟩
  obtain ⟨e0, e1, e2, e3, e4, e5⟩ := idx_facts t
  have ht : t.val = (i 0).val / 10000 := rfl
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- The result array after the call. -/
theorem final (c : Dev nD) : (dat4 V c).arrAt 2 cfg4.N
    = biasLogSoftmax (aarr V c) (barr V c) :=
  (dat4 V c).arrAt_eq_of_cover 2 _ (fun t _ => flushed_eq V c t) (cover)

end Cert.KernelIdeal.Region4

end
-- ==== Proof.PadScale.lean ====
/-
  Layout facts about arrays padded at the end of their rows and cut back, with no program in sight.
  A [E, C] array padded with E' − E more rows and cut back to its first E rows is the array; a slice commutes with an
  entrywise product and with a row-by-row scaling; a vector of n entries laid as a column, by a reshape or by a
  broadcast along the new axis, holds entry r in row r; a column broadcast along its unit axis holds the column's
  entry of the row in every column.
-/
import Idealize.ShloMosaic.Lib.Pipeline.Value
import Idealize.ShloMosaic.Lib.ValueIdx
import Idealize.ShloMosaic.Lib.KernelVsHost

noncomputable section

namespace Cert.PadScale

open Idealize.ShloMosaic Idealize.ShloMosaic.ValueIdx

variable {α : Type}

/-- The first E rows of an array padded below with further rows are the array. -/
theorem slice_pad {E E' C : Nat} (g : (⟨2, ![E, C]⟩ : Shape).Idx → α) {u : Shape} (z : u.Idx → α) (hi : Fin 2 → Nat)
    (hp : (⟨2, ![E, C]⟩ : Shape).Pads ![0, 0] hi ![0, 0] ⟨2, ![E', C]⟩) (hu : 0 < u.numel)
    (hs : (⟨2, ![E', C]⟩ : Shape).Slices ![0, 0] ⟨2, ![E, C]⟩) :
    extractStridedSlice ⟨2, ![E, C]⟩ ![0, 0] (pad ⟨2, ![E', C]⟩ ![0, 0] hi ![0, 0] g z hp hu) hs = g := by
  funext j
  unfold extractStridedSlice
  refine pad_apply_of_inside ![0, 0] hi ![0, 0] g z hp hu _ j fun a => ?_
  match a with
  | ⟨0, _⟩ => show 0 + (j 0).val = 0 + (j 0).val * (0 + 1); omega
  | ⟨1, _⟩ => show 0 + (j 1).val = 0 + (j 1).val * (0 + 1); omega

variable {F : FTy → Type} [FloatOps F]

/-- A slice of an entrywise product is the product of the slices. -/
theorem slice_mulf {s t : Shape} (off : Fin s.rank → Nat) (a b : FVec F s .f32) (h : s.Slices off t) :
    extractStridedSlice t off (mulf a b) h = mulf (extractStridedSlice t off a h) (extractStridedSlice t off b h) := rfl

/-- The leading rows of a matrix scaled row by row by a column are the leading rows of the matrix scaled by the leading
    rows of the column. -/
theorem slice_scaleRows {E E' C : Nat} (G : (⟨2, ![E', C]⟩ : Shape).Idx → Elt F .f32) (N : (⟨2, ![E', 1]⟩ : Shape).Idx → Elt F .f32)
    (hs : (⟨2, ![E', C]⟩ : Shape).Slices ![0, 0] ⟨2, ![E, C]⟩) (hs1 : (⟨2, ![E', 1]⟩ : Shape).Slices ![0, 0] ⟨2, ![E, 1]⟩) :
    extractStridedSlice ⟨2, ![E, C]⟩ ![0, 0] (fun i => FloatOps.mulf (G i) (N (ix2 (i 0) (0 : Fin 1)))) hs
      = fun i => FloatOps.mulf (extractStridedSlice ⟨2, ![E, C]⟩ ![0, 0] G hs i)
          (extractStridedSlice ⟨2, ![E, 1]⟩ ![0, 0] N hs1 (ix2 (i 0) (0 : Fin 1))) := by
  funext j
  unfold extractStridedSlice
  refine congrArg (FloatOps.mulf _) (congrArg N ?_)
  funext a; apply Fin.ext
  match a with
  | ⟨0, _⟩ => rfl
  | ⟨1, _⟩ => rfl

/-- A vector of n entries reshaped to a column, read at row r, is the vector's entry r. -/
theorem col_apply {n : Nat} (v : (⟨1, ![n]⟩ : Shape).Idx → α) (h : (⟨1, ![n]⟩ : Shape).ShapeCasts ⟨2, ![n, 1]⟩)
    (i : (⟨2, ![n, 1]⟩ : Shape).Idx) : shapeCast ⟨2, ![n, 1]⟩ v h i = v (ix1 (i 0)) := by
  refine shapeCast_apply v h i (ix1 (i 0)) ?_
  rw [Shape.rowMajor_val_one, Shape.rowMajor_val_two]
  show (i 0).val = (i 0).val * 1 + (i 1).val
  have h1 : (i 1).val < 1 := (i 1).isLt
  omega

/-- A vector of n entries broadcast along a new unit axis to a column, read at row r, is the vector's entry r. -/
theorem bcast_col_apply {n : Nat} (v : (⟨1, ![n]⟩ : Shape).Idx → α) (h : (⟨1, ![n]⟩ : Shape).BroadcastsInDim ⟨2, ![n, 1]⟩ ![0])
    (hn : n ≠ 1) (i : (⟨2, ![n, 1]⟩ : Shape).Idx) : broadcastInDim ⟨2, ![n, 1]⟩ ![0] h v i = v (ix1 (i 0)) := by
  refine broadcastInDim_apply ![0] h v i (ix1 (i 0)) fun a => ?_
  match a with
  | ⟨0, _⟩ => show (i 0).val = if n = 1 then 0 else (i 0).val; rw [if_neg hn]

/-- A column broadcast across C columns, read at (r, k), is the column's entry of row r. -/
theorem bcast_cols_apply {n C : Nat} (v : (⟨2, ![n, 1]⟩ : Shape).Idx → α) (h : (⟨2, ![n, 1]⟩ : Shape).BroadcastsInDim ⟨2, ![n, C]⟩ ![0, 1])
    (hn : n ≠ 1) (i : (⟨2, ![n, C]⟩ : Shape).Idx) : broadcastInDim ⟨2, ![n, C]⟩ ![0, 1] h v i = v (ix2 (i 0) (0 : Fin 1)) := by
  refine broadcastInDim_apply ![0, 1] h v i (ix2 (i 0) (0 : Fin 1)) fun a => ?_
  match a with
  | ⟨0, _⟩ => show (i 0).val = if n = 1 then 0 else (i 0).val; rw [if_neg hn]
  | ⟨1, _⟩ => rfl

end Cert.PadScale

end
-- ==== Proof.Assembly.lean ====
/-
  The kernel program's result, stage by stage, is the reference's, over the extended reals.
  Each of the five calls leaves in its result array one whole-array function of the arrays it finds on entry (the
  five region modules); the host stretches between the calls are the reference's own operations on those arrays (the
  fold module). What is left is arithmetic of layouts and of one-entry rows:
   * the rows of x against the columns of w are the host's product;
   * a gather padded with zero rows, scaled row by row by the padded normalisation column and cut back to its
     3300000 rows, is the gather times the normalisation broadcast along the row: the padding rows never reach the
     slice;
   * the bias row added, the maximum with zero and the rows-against-columns sum are the reference's broadcast bias,
     rectifier and product, index by index;
   * in a one-entry row the maximum from −∞ is the entry and the sum from 0 is the entry, on both sides.
  No step needs finiteness: both sides are the same expression of the same extended reals.
-/
import proofs.«114095_j29265907155119_1_alg».proof.Proof.HostFold
import proofs.«114095_j29265907155119_1_alg».proof.Proof.Region0
import proofs.«114095_j29265907155119_1_alg».proof.Proof.Region2
import proofs.«114095_j29265907155119_1_alg».proof.Proof.Region4
import proofs.«114095_j29265907155119_1_alg».proof.Proof.PadScale
import proofs.«114095_j29265907155119_1_alg».proof.Proof.KernelRun
import Idealize.ShloMosaic.PureOps.Ideal.Laws

set_option maxRecDepth 65536

noncomputable section

namespace Cert.KernelIdeal.Asm

open Cert.KernelIdeal Cert.KernelIdeal.Gen
open Idealize.ShloMosaic Idealize.ShloMosaic.TcCoe Idealize.ShloMosaic.ValueIdx Idealize.SL.Sem
open Cert.ReferenceIdeal.ReadP

/-! ## Layout and one-entry-row facts -/

/-- A vector of n entries reshaped to one row, read at (0, k), is the vector's entry k. -/
theorem row_apply {n : Nat} {α : Type} (v : (⟨1, ![n]⟩ : Shape).Idx → α) (h : (⟨1, ![n]⟩ : Shape).ShapeCasts ⟨2, ![1, n]⟩)
    (k : Fin n) : shapeCast ⟨2, ![1, n]⟩ v h (ix2 (0 : Fin 1) k) = v (ix1 k) := by
  refine shapeCast_apply v h (ix2 (0 : Fin 1) k) (ix1 k) ?_
  rw [Shape.rowMajor_val_one, Shape.rowMajor_val_two]
  show k.val = 0 * n + k.val
  omega

/-- The host's maximum along a one-entry row, from −∞, is the entry. -/
theorem hostMax_col {n : Nat} (v : FVec Ideal ⟨2, ![n, 1]⟩ .f32) (init : FVec Ideal ⟨0, ![]⟩ .f32)
    (h' : (⟨2, ![n, 1]⟩ : Shape).ReducesTo [1] (⟨1, ![n]⟩ : Shape)) (h : (⟨2, ![n, 1]⟩ : Shape).Reduces [1] (⟨1, ![n]⟩ : Shape))
    (hu : 0 < (⟨0, ![]⟩ : Shape).numel) (hinit : init ix0 = ⊥) (p : Fin n) :
    Host.reduce FloatOps.maximumf v init h' hu (ix1 p) = v (ix2 p (0 : Fin 1)) := by
  rw [Host.reduce_eq_fold_single FloatOps.maximumf v init h' h hu, eq_ix0 (Shape.Idx.first hu), hinit]
  refine (Region4.fold_max_one (v ∘ h.lift (ix1 p)) ⊥).trans ?_
  rw [max_bot_right]
  exact congrArg v (Region4.lift_col h p (0 : Fin 1))

/-! ## The five stage identities, on arbitrary arrays -/

/-- The rows of a against the columns of w are the host's product. -/
theorem rowsDot_eq (a : (⟨Cert.ReferenceIdeal.S100000x128, .f32⟩ : BufTy).Contents (Elt Ideal)) (w : (⟨Cert.ReferenceIdeal.S128x16, .f32⟩ : BufTy).Contents (Elt Ideal)) :
    Region0.rowsDot a w = val_main_v32 (F := Ideal) a w := by
  funext i
  rw [val_main_v32_apply]
  unfold Region0.rowsDot
  refine Finset.sum_congr rfl fun k _ => ?_
  have e1 : ix2 (i 0) k = lidx_main_v32 i k := funext fun b => by match b with | ⟨0, _⟩ => rfl | ⟨1, _⟩ => rfl
  have e2 : ix2 k (i 1) = ridx_main_v32 i k := funext fun b => by match b with | ⟨0, _⟩ => rfl | ⟨1, _⟩ => rfl
  exact congr (congrArg (· * ·) (congrArg a e1)) (congrArg w e2)

variable {F : FTy → Type} [FloatOps F]

/-- A [3300000, 16] array padded with zero rows, scaled row by row by the padded normalisation column and cut back, is
    the array times the normalisation broadcast along each row. -/
theorem scaled16_eq (g : (⟨S3300000x16, .f32⟩ : BufTy).Contents (Elt F)) (n : (⟨S3300000, .f32⟩ : BufTy).Contents (Elt F))
    (z : (⟨S_, .f32⟩ : BufTy).Contents (Elt F)) :
    extractStridedSlice S3300000x16 ![0, 0]
        (Region1.scaleRows (pad S3301376x16 ![0, 0] ![1376, 0] ![0, 0] g z pads_S3300000x16_S3301376x16_013760_000 h_S_)
          (pad S3301376x1 ![0, 0] ![1376, 0] ![0, 0] (shapeCast S3300000x1 n shapeCasts_S3300000_S3300000x1) z pads_S3300000x1_S3301376x1_013760_000 h_S_))
        slices_S3301376x16_S3300000x16_0_0
      = mulf g (broadcastInDim Cert.ReferenceIdeal.S3300000x16 ![0, 1] Cert.ReferenceIdeal.Gen.bcast_S3300000x1_S3300000x16_0_1
          (broadcastInDim Cert.ReferenceIdeal.S3300000x1 ![0] Cert.ReferenceIdeal.Gen.bcast_S3300000_S3300000x1_0 n)) := by
  unfold Region1.scaleRows
  refine (Cert.PadScale.slice_scaleRows (E := 3300000) (E' := 3301376) (C := 16) _ _ slices_S3301376x16_S3300000x16_0_0
    slices_S3301376x1_S3300000x1_0_0).trans ?_
  funext i
  refine congr (congrArg FloatOps.mulf (congrFun (Cert.PadScale.slice_pad g z ![1376, 0] pads_S3300000x16_S3301376x16_013760_000 h_S_ slices_S3301376x16_S3300000x16_0_0) i)) ?_
  refine (congrFun (Cert.PadScale.slice_pad (shapeCast S3300000x1 n shapeCasts_S3300000_S3300000x1) z ![1376, 0] pads_S3300000x1_S3301376x1_013760_000 h_S_ slices_S3301376x1_S3300000x1_0_0) (ix2 (i 0) (0 : Fin 1))).trans ?_
  refine (Cert.PadScale.col_apply n shapeCasts_S3300000_S3300000x1 (ix2 (i 0) (0 : Fin 1))).trans ?_
  symm
  refine (Cert.PadScale.bcast_cols_apply _ Cert.ReferenceIdeal.Gen.bcast_S3300000x1_S3300000x16_0_1 (by decide) i).trans ?_
  exact Cert.PadScale.bcast_col_apply n Cert.ReferenceIdeal.Gen.bcast_S3300000_S3300000x1_0 (by decide) (ix2 (i 0) (0 : Fin 1))

/-- A [3300000, 1] column padded with zero rows, times the padded normalisation column, cut back, is the column times the
    normalisation laid as a column. -/
theorem scaled1_eq (g : (⟨S3300000x1, .f32⟩ : BufTy).Contents (Elt F)) (n : (⟨S3300000, .f32⟩ : BufTy).Contents (Elt F))
    (z : (⟨S_, .f32⟩ : BufTy).Contents (Elt F)) :
    extractStridedSlice S3300000x1 ![0, 0]
        (mulf (pad S3301376x1 ![0, 0] ![1376, 0] ![0, 0] g z pads_S3300000x1_S3301376x1_013760_000 h_S_ : S3301376x1.Idx → Elt F .f32)
          (pad S3301376x1 ![0, 0] ![1376, 0] ![0, 0] (shapeCast S3300000x1 n shapeCasts_S3300000_S3300000x1) z pads_S3300000x1_S3301376x1_013760_000 h_S_))
        slices_S3301376x1_S3300000x1_0_0
      = mulf g (broadcastInDim Cert.ReferenceIdeal.S3300000x1 ![0] Cert.ReferenceIdeal.Gen.bcast_S3300000_S3300000x1_0 n) := by
  funext i
  show FloatOps.mulf (extractStridedSlice S3300000x1 ![0, 0] (pad S3301376x1 ![0, 0] ![1376, 0] ![0, 0] g z pads_S3300000x1_S3301376x1_013760_000 h_S_) slices_S3301376x1_S3300000x1_0_0 i)
      (extractStridedSlice S3300000x1 ![0, 0] (pad S3301376x1 ![0, 0] ![1376, 0] ![0, 0] (shapeCast S3300000x1 n shapeCasts_S3300000_S3300000x1) z pads_S3300000x1_S3301376x1_013760_000 h_S_) slices_S3301376x1_S3300000x1_0_0 i)
    = FloatOps.mulf (g i) (broadcastInDim Cert.ReferenceIdeal.S3300000x1 ![0] Cert.ReferenceIdeal.Gen.bcast_S3300000_S3300000x1_0 n i)
  refine congr (congrArg FloatOps.mulf (congrFun (Cert.PadScale.slice_pad g z ![1376, 0] pads_S3300000x1_S3301376x1_013760_000 h_S_ slices_S3301376x1_S3300000x1_0_0) i)) ?_
  refine (congrFun (Cert.PadScale.slice_pad (shapeCast S3300000x1 n shapeCasts_S3300000_S3300000x1) z ![1376, 0] pads_S3300000x1_S3301376x1_013760_000 h_S_ slices_S3301376x1_S3300000x1_0_0) i).trans ?_
  refine (Cert.PadScale.col_apply n shapeCasts_S3300000_S3300000x1 i).trans ?_
  exact (Cert.PadScale.bcast_col_apply n Cert.ReferenceIdeal.Gen.bcast_S3300000_S3300000x1_0 (by decide) i).symm

section AtIdeal

variable (X0 : (⟨Cert.ReferenceIdeal.S100000x128, .f32⟩ : BufTy).Contents (Elt Ideal)) (X1 : (⟨Cert.ReferenceIdeal.S2x3200000, .i32⟩ : BufTy).Contents (Elt Ideal))
  (X2 : (⟨Cert.ReferenceIdeal.S128x16, .f32⟩ : BufTy).Contents (Elt Ideal)) (X3 : (⟨Cert.ReferenceIdeal.S16, .f32⟩ : BufTy).Contents (Elt Ideal))
  (X4 : (⟨Cert.ReferenceIdeal.S16x1, .f32⟩ : BufTy).Contents (Elt Ideal)) (X5 : (⟨Cert.ReferenceIdeal.S1, .f32⟩ : BufTy).Contents (Elt Ideal))

/-- The reference's rectified first layer at (r, k). -/
theorem relu_apply (r : Fin 100000) (k : Fin 16) :
    val_main_v49 (F := Ideal) X0 X1 X2 X3 (ix2 r k)
      = max (val_main_v45 (F := Ideal) X0 X1 X2 (ix2 r k) + X3 (ix1 k)) (Ideal.ofBits .f32 0x00000000#32) := by
  rw [val_main_v49_apply, val_main_v48_apply, val_main_v47_apply, val_main_v46_apply, val_main_call1_v0_apply, val_main_call1_cst_apply]
  have e : idx_main_v46 (idx_main_v47 (ix2 r k)) = ix1 k := funext fun b => by match b with | ⟨0, _⟩ => rfl
  rw [e]
  rfl

/-- The bias row, the maximum with zero and the rows-against-columns sum are the reference's second product. -/
theorem mid_eq : Region2.biasReluDot (val_main_v45 (F := Ideal) X0 X1 X2) (shapeCast S1x16 X3 shapeCasts_S16_S1x16) X4
    = val_main_v50 (F := Ideal) X0 X1 X2 X3 X4 := by
  funext i
  rw [val_main_v50_apply]
  unfold Region2.biasReluDot
  refine Finset.sum_congr rfl fun k _ => ?_
  have e1 : lidx_main_v50 i k = ix2 (i 0) k := funext fun b => by match b with | ⟨0, _⟩ => rfl | ⟨1, _⟩ => rfl
  have e2 : ridx_main_v50 i k = ix2 k (i 1) := funext fun b => by match b with | ⟨0, _⟩ => rfl | ⟨1, _⟩ => rfl
  rw [e1, e2]
  have hb : shapeCast S1x16 X3 shapeCasts_S16_S1x16 (ix2 (0 : Fin 1) k) = X3 (ix1 k) := row_apply X3 shapeCasts_S16_S1x16 k
  refine congrArg (· * X4 (ix2 k (i 1))) ?_
  refine Eq.trans ?_ (relu_apply X0 X1 X2 X3 (i 0) k).symm
  exact congrArg (fun t => max (val_main_v45 (F := Ideal) X0 X1 X2 (ix2 (i 0) k) + t) (Ideal.ofBits .f32 0x00000000#32)) hb

/-- The reference's biased second layer at row r. -/
theorem biased_apply (i : Cert.ReferenceIdeal.S100000x1.Idx) :
    val_main_v65 (F := Ideal) X0 X1 X2 X3 X4 X5 i
      = val_main_v62 (F := Ideal) X0 X1 X2 X3 X4 i + shapeCast S1x1 X5 shapeCasts_S1_S1x1 (ix2 (0 : Fin 1) (0 : Fin 1)) := by
  rw [val_main_v65_apply, val_main_v64_apply, val_main_v63_apply]
  have e : idx_main_v63 (idx_main_v64 i) = ix1 (0 : Fin 1) := funext fun b => by match b with | ⟨0, _⟩ => rfl
  rw [e, row_apply X5 shapeCasts_S1_S1x1 (0 : Fin 1)]
  rfl

/-- The reference's row maximum is the row's one entry. -/
theorem rowmax_apply (i : Cert.ReferenceIdeal.S100000x1.Idx) :
    val_main_call2_v3 (F := Ideal) X0 X1 X2 X3 X4 X5 i = val_main_v65 (F := Ideal) X0 X1 X2 X3 X4 X5 i := by
  rw [val_main_call2_v3_apply, val_main_call2_v2_apply]
  unfold val_main_call2_v0
  have hi : idx_main_call2_v3 i = ix1 (i 0) := funext fun b => by match b with | ⟨0, _⟩ => rfl
  rw [hi]
  have hb : val_main_call2_v1 (F := Ideal) (ix1 (i 0)) = ⊥ := by
    rw [val_main_call2_v1_apply, val_main_call2_cst_0_apply]; exact Region4.ofBits_neg_inf
  have h1 : (i 1).val < 1 := (i 1).isLt
  have ei : ix2 (i 0) (0 : Fin 1) = i := funext fun b => by
    match b with
    | ⟨0, _⟩ => rfl
    | ⟨1, _⟩ => exact Fin.ext (by show 0 = (i 1).val; omega)
  generalize val_main_v65 (F := Ideal) X0 X1 X2 X3 X4 X5 = z
  rw [Ideal.maximumf_def]
  refine (congr (congrArg max hb) (hostMax_col z (val_main_call2_cst (F := Ideal)) Cert.ReferenceIdeal.Gen.reducesTo_S100000x1_S100000_d1 (by decide) Cert.ReferenceIdeal.Gen.h_S_
    Region4.ofBits_neg_inf (i 0))).trans ?_
  rw [max_bot_left]
  exact congrArg z ei

/-- The reference's shifted row is the entry minus itself. -/
theorem shifted_apply (i : Cert.ReferenceIdeal.S100000x1.Idx) :
    val_main_call2_v4 (F := Ideal) X0 X1 X2 X3 X4 X5 i = val_main_v65 (F := Ideal) X0 X1 X2 X3 X4 X5 i - val_main_v65 (F := Ideal) X0 X1 X2 X3 X4 X5 i := by
  rw [val_main_call2_v4_apply, rowmax_apply]
  rfl

/-- The reference's row sum of exponentials is the one exponential. -/
theorem rowsum_apply (i : Cert.ReferenceIdeal.S100000x1.Idx) :
    val_main_call2_v7 (F := Ideal) X0 X1 X2 X3 X4 X5 i
      = Ideal.exp (val_main_v65 (F := Ideal) X0 X1 X2 X3 X4 X5 i - val_main_v65 (F := Ideal) X0 X1 X2 X3 X4 X5 i) := by
  rw [val_main_call2_v7_apply, val_main_call2_v6_apply, Fin.sum_univ_one, val_main_call2_v5_apply, shifted_apply, val_main_call2_cst_1_apply]
  have h1 : (i 1).val < 1 := (i 1).isLt
  have e : idx_main_call2_v6 (idx_main_call2_v7 i) (0 : Fin 1) = i := funext fun b => by
    match b with
    | ⟨0, _⟩ => rfl
    | ⟨1, _⟩ => exact Fin.ext (by show 0 = (i 1).val; omega)
  rw [e]
  generalize val_main_v65 (F := Ideal) X0 X1 X2 X3 X4 X5 i = y
  show Ideal.ofBits .f32 0x00000000#32 + Ideal.exp (y - y) = _
  rw [Ideal.ofBits_zero_f32, zero_add]

/-- The bias and the one-entry-row log-softmax are the reference's last stage. -/
theorem logsoftmax_eq : Region4.biasLogSoftmax (val_main_v62 (F := Ideal) X0 X1 X2 X3 X4) (shapeCast S1x1 X5 shapeCasts_S1_S1x1)
    = val_main_v66 (F := Ideal) X0 X1 X2 X3 X4 X5 := by
  funext i
  rw [val_main_v66_apply, val_main_call2_v8_apply, rowsum_apply, shifted_apply, biased_apply]
  unfold Region4.biasLogSoftmax Region4.logSoftmaxOne
  dsimp only
  generalize val_main_v62 (F := Ideal) X0 X1 X2 X3 X4 i = a
  generalize shapeCast S1x1 X5 shapeCasts_S1_S1x1 (ix2 (0 : Fin 1) (0 : Fin 1)) = b
  rfl

end AtIdeal

/-! ## The kernel program's boundaries at the reference's stages -/

variable (m : (ℓ : Loc nD τ sig) → Buf (Elt Ideal) ℓ) (ρ : Dev nD → PrngReg) (c : Dev nD)

theorem k36 : W6 m ρ c (Proc.devRef .tc main_v36) = val_main_v32 (F := Ideal) (m ((c : Thread nD τ).loc main_arg0)) (m ((c : Thread nD τ).loc main_arg2)) := by
  refine (Fold.w6_v36 m ρ c).trans ((Region0.final (V5 m ρ) c).trans ?_)
  show Region0.rowsDot (W5 m ρ c (Proc.devRef .tc main_arg0)) (W5 m ρ c (Proc.devRef .tc main_arg2)) = _
  rw [Fold.w5_arg0, Fold.w5_arg2]
  exact rowsDot_eq _ _

theorem k45 : W9 m ρ c (Proc.devRef .tc main_v45)
    = Region1.scaleRows (Fold.gatherPad16 m c (val_main_v32 (F := Ideal) (m ((c : Thread nD τ).loc main_arg0)) (m ((c : Thread nD τ).loc main_arg2)))) (Fold.normPad m c) := by
  rw [Fold.w9_v45, Fold.w8_v44 m ρ c _ (k36 m ρ c), Fold.w8_v33]

theorem k49 : W10 m ρ c (Proc.devRef .tc main_v49) = val_main_v45 (F := Ideal) (m ((c : Thread nD τ).loc main_arg0)) (m ((c : Thread nD τ).loc main_arg1)) (m ((c : Thread nD τ).loc main_arg2)) := by
  rw [Fold.w10_v49 m ρ c _ (k45 m ρ c)]
  unfold Fold.gatherPad16 Fold.normPad
  rw [scaled16_eq]
  unfold val_main_v45 val_main_v42 val_main_v39 val_main_v41 val_main_v40 val_main_v43 val_main_v44 val_main_cst_9
  rfl

theorem k50 : W11 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (Fold.w11_v50 m ρ c).trans ((Region2.final (V10 m ρ) c).trans ?_)
  show Region2.biasReluDot (W10 m ρ c (Proc.devRef .tc main_v49)) (W10 m ρ c (Proc.devRef .tc main_v34)) (W10 m ρ c (Proc.devRef .tc main_arg4)) = _
  rw [k49, Fold.w10_v34, Fold.w10_arg4]
  exact mid_eq _ _ _ _ _

theorem k59 : W14 m ρ c (Proc.devRef .tc main_v59)
    = mulf (Fold.gatherPad1 m c (val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4))) : S3301376x1.Idx → Elt Ideal .f32) (Fold.normPad m c) := by
  rw [Fold.w14_v59, Fold.w13_v58 m ρ c _ (k50 m ρ c), Fold.w13_v33]

theorem k63 : W15 m ρ c (Proc.devRef .tc main_v63) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Fold.w15_v63 m ρ c _ (k59 m ρ c)]
  unfold Fold.gatherPad1 Fold.normPad
  rw [scaled1_eq]
  unfold val_main_v62 val_main_v59 val_main_v57 val_main_v58 val_main_v60 val_main_v61 val_main_cst_12
  rfl

theorem k64 : W16 m ρ c (Proc.devRef .tc main_v64) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Fold.w16_v64 m ρ c).trans ((Region4.final (V15 m ρ) c).trans ?_)
  show Region4.biasLogSoftmax (W15 m ρ c (Proc.devRef .tc main_v63)) (W15 m ρ c (Proc.devRef .tc main_v35)) = _
  rw [k63, Fold.w15_v35]
  exact logsoftmax_eq _ _ _ _ _ _

/-- The kernel program's run with its result named: the reference's last stage of the argument arrays. -/
theorem run : θ_run defs (onTc (τ := τ) (main (F := Ideal))) ⟨m, fun _ => 0, ρ⟩ (fun r => ∀ c : Dev nD,
      r.2.mem ((c.tc : Thread nD τ).loc main_v64)
        = val_main_v66 (F := Ideal) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (k64 m ρ c), (h c).2⟩) (Cert.KernelIdeal.RunVal.run_val m ρ)

end Cert.KernelIdeal.Asm

end
-- ==== Proof.lean ====
/-
  A two-layer graph convolution with self loops and symmetric normalisation, then a log-softmax over each node's one
  output, written as five tiled calls among host operations, against the plain reference.

  Both programs build, from the edge list alone, the source and destination index vectors with one self loop per node
  appended, the degree of each node by a scatter-add of ones, its inverse square root where positive, and the per-edge
  weight: these host operations are literally the same on the two sides. The kernel program then computes
    h1 = x · W1 in ten blocks of 10000 rows, each block against the whole W1;
    the gather of h1 at the sources, padded with 1376 zero rows to a multiple of the 8192-row tile, scaled row by row
      by the padded weights, and cut back to its 3300000 rows; scatter-added at the destinations;
    h2 = max (· + b1) 0 · W2 in ten blocks of rows;
    the same gather, padding, scaling, cut and scatter-add for the one-column h2;
    the bias b2 added and, row by row, y ↦ (y − max y) − log Σ exp (y − max y) over the row's one entry.
  Over the extended reals a change of float format is the identity, a block product into a zero accumulator is the
  sum over the contracted index, and each call's result array is one whole-array function of the arrays it finds on
  entry, whatever the order of the grid points, because its blocks tile the array exactly. The padding rows never reach
  the slice, a weight laid as a column by a reshape is the weight laid as a column by a broadcast, and in a one-entry
  row the maximum from −∞ and the sum from 0 are the entry itself on both sides. So the two results are the same
  expression of the same arguments, stage by stage; no step distributes a product over a sum or cancels, and the
  precondition is never opened.

  The three frames: the two kernel programs' are the generated frame certificates; the reference's is its run with the
  result dropped. No operation was rewritten by the idealisation, so what it preserves is trivially true.
-/
import proofs.«114095_j29265907155119_1_alg».proof.Defs
import proofs.«114095_j29265907155119_1_alg».proof.Proof.Gen.Kernel
import proofs.«114095_j29265907155119_1_alg».proof.Proof.Gen.Kernel.Frame
import proofs.«114095_j29265907155119_1_alg».proof.Proof.Gen.KernelIdeal
import proofs.«114095_j29265907155119_1_alg».proof.Proof.Gen.KernelIdeal.Frame
import proofs.«114095_j29265907155119_1_alg».proof.Proof.Gen.ReferenceIdeal
import proofs.«114095_j29265907155119_1_alg».proof.Proof.Gen.Pre_finite_inputs
import proofs.«114095_j29265907155119_1_alg».proof.Proof.RefRun
import proofs.«114095_j29265907155119_1_alg».proof.Proof.RefRead
import proofs.«114095_j29265907155119_1_alg».proof.Proof.Assembly
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference has no call: its frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- The two programs, from memories agreeing on the arguments, end with the result array at the same stage term of
    the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Asm.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v66_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
